-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S4096x16 .f32) (main_arg4 : FVec F S16x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S8192x4096 : Shape := ⟨2, ![8192, 4096]⟩
abbrev S1x4096 : Shape := ⟨2, ![1, 4096]⟩
abbrev S1024x1024 : Shape := ⟨2, ![1024, 1024]⟩
abbrev S1024x16 : Shape := ⟨2, ![1024, 16]⟩
abbrev S16x1024 : Shape := ⟨2, ![16, 1024]⟩
abbrev S1024x2048 : Shape := ⟨2, ![1024, 2048]⟩
abbrev S1x1024 : Shape := ⟨2, ![1, 1024]⟩

abbrev nBuf : Space → Nat
  | .hbm => 11
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8192x4096, .f32⟩
  | .hbm, ⟨6, _⟩ => ⟨S8192x4096, .bf16⟩
  | .hbm, ⟨7, _⟩ => ⟨S1x4096, .f32⟩
  | .hbm, ⟨8, _⟩ => ⟨S4096x4096, .bf16⟩
  | .hbm, ⟨9, _⟩ => ⟨S8192x4096, .f32⟩
  | .hbm, ⟨10, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S1024x16, .f32⟩
  | .local _ .vmem, ⟨4, _⟩ => ⟨S16x1024, .f32⟩
  | .local _ .vmem, ⟨5, _⟩ => ⟨S16x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 4, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x16_S1024x16_0_0 : ∀ a, (![0, 0] : Fin 2 → Nat) a + S1024x16.size a ≤ S1024x16.size a
  h_S1024x16 : 0 < S1024x16.numel
  inb_S16x1024_S16x1024_0_0 : ∀ a, (![0, 0] : Fin 2 → Nat) a + S16x1024.size a ≤ S16x1024.size a
  h_S16x1024 : 0 < S16x1024.numel
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x16_S16x1024_S1024x1024_1_0_0_1_n_n_wf : DotDims.WF S1024x16 S16x1024 S1024x1024 [1] [0] [0] [1] [] []
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x4096.size a
  hwx1_0 : ∀ i : grid1.Coords, EltTy.bits .bf16 = 32 ∨ (Rect.block (s := S8192x4096) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x4096.size a
  hwx1_1 : ∀ i : grid1.Coords, EltTy.bits .bf16 = 32 ∨ (Rect.block (s := S4096x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4096x4096, .f32⟩
  | .hbm, ⟨6, _⟩ => ⟨S4x2048x4096, .f32⟩
  | .hbm, ⟨7, _⟩ => ⟨S1x1x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Kernel.R0.lean ====
/-
  The first kernel region: the effective weight, tile by tile.

  The grid is 4 × 4. At point (i, j) the body reads the 1024 × 1024 tile (i, j) of the base weight, the 1024 × 16
  row band i of the first low-rank factor and the 16 × 1024 column band j of the second, multiplies the two bands
  into a zero accumulator, adds the weight tile, narrows the sum and stores it as the whole 1024 × 1024 tile (i, j)
  of the result. So each output tile is one function of three input blocks, the body keeps nothing between points,
  and an input band that is not fetched again at a point still holds the block the point needs.
-/
import proofs.«177365_j21225728377224_1_alg».proof.Proof.Gen.Kernel.Launch
import proofs.«177365_j21225728377224_1_alg».proof.Proof.Gen.Kernel.Skeleton
import proofs.«177365_j21225728377224_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered: a parameter, instantiated by the run
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: where the pipeline does
    not fetch, the block index has not moved. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it stores -/

abbrev r0_w : Rect S1024x1024 := Rect.unit (s := S1024x1024) ![0, 0] S1024x1024.size inb_S1024x1024_S1024x1024_0_0
abbrev r0_a : Rect S1024x16 := Rect.unit (s := S1024x16) ![0, 0] S1024x16.size inb_S1024x16_S1024x16_0_0
abbrev r0_b : Rect S16x1024 := Rect.unit (s := S16x1024) ![0, 0] S16x1024.size inb_S16x1024_S16x1024_0_0

/-- The output tile from the three input blocks: the body's one store, over the whole tile. -/
def out0_3 (x0 : Vec F S1024x1024 .f32) (x1 : Vec F S1024x16 .f32) (x2 : Vec F S16x1024 .f32) : Vec F S1024x1024 .bf16 :=
  View.canon [⟨r0_w, k0_pay1 (View.ld x1 r0_a) (View.ld x2 r0_b) (View.ld x0 r0_w)⟩]

/-- The one store covers the tile. -/
theorem cover0_3 (p0 : Vec F S1024x1024 .bf16) (y : S1024x1024.Idx) :
    ∃ pc ∈ ([⟨r0_w, p0⟩] : List (View.Piece (Elt F) S1024x1024 .bf16)), y ∈ pc.1.set :=
  View.cover_of_tiled [⟨r0_w, p0⟩] S1024x1024.size (by rfl) y

/-! ## The body's triple -/

set_option maxHeartbeats 1000000 in
/-- On whole buffers, the three inputs' at contents `x0`, `x1`, `x2` and the output's at anything, the body runs to
    the continuation holding the inputs' as they were and the output's at `out0_3` of them. -/
theorem sound_kernel0 (c : Dev nD) (E : Set ℕ) (i : grid0.Coords)
    (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x1024 .bf16) (harg5 : arg5.IsWhole)
    (x0 : Vec F S1024x1024 .f32) (x1 : Vec F S1024x16 .f32) (x2 : Vec F S16x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__combine_kernel i arg2 harg2 arg3 harg3 arg4 harg4 arg5 harg5) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The region's proof data on core `c`: the arrays as the region finds them; after the body at point `t` each input's
    buffer at its block and the output's at `out0_3` of the three blocks; the invariant the scoped buffers no window
    stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.Kernel.R1Run.lean ====
/-
  The second kernel region's body, case by case.

  The grid is 8 × 4 × 2; the last axis walks the two halves of the contracted axis. The body branches twice on
  that coordinate `k`: at `k = 0` it first fills the accumulator scratch with zeros; at every point it adds the
  product of the activation block with the weight block (contracted over their second axes) to the accumulator;
  at `k = 1` it adds the bias row, broadcast down the rows, and stores the sum as the output tile. On this grid
  `k = 0` exactly at the even points and `k = 1` exactly at the odd ones, so there are two cases: an even point
  resets and accumulates and leaves the output buffer untouched (the window is idle there and not written back),
  an odd point accumulates onto what the even point before it left and stores the output.
-/
import proofs.«177365_j21225728377224_1_alg».proof.Proof.Gen.Kernel.Launch
import proofs.«177365_j21225728377224_1_alg».proof.Proof.Gen.Kernel.Skeleton
import proofs.«177365_j21225728377224_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions, decided over the grid -/

/-- "The last grid coordinate is 0", as the body computes it. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- "The last grid coordinate is 1", as the body computes it. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- At an even point the output window is idle: the body stores nothing into it, -/
theorem idleAt1_3_A : ∀ t : Fin cfg1.N, cond1_0 (grid1.coords t) → ¬cond1_1 (grid1.coords t) → cfg1.idle 3 (grid1.coords t) = true := by decide +kernel
/-- and the pipeline does not write its block back. -/
theorem noFlush1_3_A : ∀ t : Fin cfg1.N, cond1_0 (grid1.coords t) → ¬cond1_1 (grid1.coords t) → (cfg1.win 3).flush t = false := by decide +kernel
/-- At an odd point the output window is live. -/
theorem liveAt1_3_B : ∀ t : Fin cfg1.N, ¬cond1_0 (grid1.coords t) → cond1_1 (grid1.coords t) → cfg1.idle 3 (grid1.coords t) = false := by decide +kernel

/-! ## The buffers the body is called on -/

/-- One buffer of the output window, through which its contents are stated (the choice does not matter). -/
abbrev VO1_3 : View sig .tc .vmem S1024x1024 .f32 := (Memref.whole cc1_stg3_0 : Memref sig .tc .vmem S1024x1024 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator scratch, a whole scoped buffer of the kernel's own, and the view its contents are stated through. -/
abbrev scM1_0 : Memref sig .tc .vmem S1024x1024 .f32 := Memref.whole cc1_scratch0
abbrev VS1_0 : View sig .tc .vmem S1024x1024 .f32 := scM1_0.view

/-- A scoped buffer this region does not use, whole at some contents. -/
abbrev spare (c : Dev nD) (b : Ref sig .tc) : sProp 𝕄 :=
  iprop(∃ f : Buf (Elt F) ((c : Thread nD τ).loc b), ((c : Thread nD τ).loc b) ↦{fullShare} f)

/-- The region invariant of a body that keeps nothing, spelt out: the first region's eight staging buffers at some
    contents each, the accumulator scratch owned at some contents, the generator register at some state. -/
theorem PhiA1_eq (c : Dev nD) :
    (Pipeline.ΦA spec1 c : sProp 𝕄)
      = iprop(iprop(spare c cc0_stg0_0 ∗ spare c cc0_stg0_1 ∗ spare c cc0_stg1_0 ∗ spare c cc0_stg1_1 ∗ spare c cc0_stg2_0 ∗ spare c cc0_stg2_1
          ∗ spare c cc0_stg3_0 ∗ spare c cc0_stg3_1 ∗ (∃ d, owns (c : Thread nD τ) scM1_0 fullShare d)) ∗ (∃ r, prngReg c r)) := by
  unfold Pipeline.ΦA; rw [scopedRest1_eq]; simp only [scM1_0, owns_whole]; try rfl

/-! ## The body's triple in each case -/

set_option maxHeartbeats 2000000 in
/-- AN EVEN POINT (first branch taken, second not). On whole buffers — the three inputs' at their contents, the output's
    at contents handed back untouched, the scratch at anything — the body runs to the continuation holding all four as
    they were and the scratch with the pieces `LS0` written: the pieces are found by the run. -/
noncomputable def kernelRun1_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 2000000 in
/-- AN ODD POINT (first branch not taken, second taken). On whole buffers — the three inputs' at their contents, the
    output's at anything, the scratch at the contents `xs0` the point before left — the body runs to the continuation
    holding the inputs' as they were, the output's with the pieces `L3` written and the scratch with `LS0` written. -/
noncomputable def kernelRun1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Frm

end
-- ==== Proof.Kernel.R1.lean ====
/-
  The second kernel region, point by point.

  What the output tile's buffer and the accumulator scratch hold after each point, by recursion on the point: an even
  point leaves the scratch at what its run stores (the zero fill, then the first half's product added) and does not
  touch the output buffer; an odd point leaves the scratch at the second half's product added to what the even point
  before it left, and the output buffer at that sum plus the bias row. The region invariant carries the scratch at
  exactly those contents from one point to the next; before the first point, and again after the last, the scratch is
  at some contents nobody names.
-/
import proofs.«177365_j21225728377224_1_alg».proof.Proof.Kernel.R1Run

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- An even point stores nothing into the output buffer: a placeholder nothing consults (the window is idle and not
    written back there). -/
def out1_A_3 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- An even point's stores into the scratch cover it. -/
theorem scover1_A_0 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What an even point leaves in the scratch. -/
def sout1_A_0 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- An odd point's one store into the output buffer covers it. -/
theorem cover1_B_3 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x1024.size (by sl_kernel_rfl) y

/-- What an odd point leaves in the output buffer. -/
def out1_B_3 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- An odd point's store into the scratch covers it. -/
theorem scover1_B_0 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What an odd point leaves in the scratch. -/
def sout1_B_0 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-! ## What the output buffer and the scratch hold after each point -/

/-- After the body at position `n`: (the output buffer, the scratch). Even `n`: the even case at the point's blocks.
    Odd `n`: the odd case at the point's blocks over the scratch the point before left. -/
def outsAt1 (c : Dev nD) : (n : ℕ) → n < cfg1.N → Vec F S1024x1024 .f32 × Vec F S1024x1024 .f32
  | 0, hn =>
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (by omega : ¬(n + 1) % 2 = 1) ((hcond1_1 ⟨n + 1, hn⟩).mp h)) (iblk1 V c 0 ⟨n + 1, hn⟩) (iblk1 V c 1 ⟨n + 1, hn⟩) (iblk1 V c 2 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (by omega : ¬(n + 1) % 2 = 1) ((hcond1_1 ⟨n + 1, hn⟩).mp h)) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr (show (n + 1) % 2 = 1 by omega)) (iblk1 V c 0 ⟨n + 1, hn⟩) (iblk1 V c 1 ⟨n + 1, hn⟩) (iblk1 V c 2 ⟨n + 1, hn⟩) (outsAt1 c n (Nat.lt_of_succ_lt hn)).2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr (show (n + 1) % 2 = 1 by omega)) (iblk1 V c 0 ⟨n + 1, hn⟩) (iblk1 V c 1 ⟨n + 1, hn⟩) (iblk1 V c 2 ⟨n + 1, hn⟩) (outsAt1 c n (Nat.lt_of_succ_lt hn)).2)

/-- At an even point. -/
theorem outsAt1_A (c : Dev nD) (t : Fin cfg1.N) (h0 : t.val % 2 = 0) (h1 : ¬t.val % 2 = 1) :
    outsAt1 V c t.val t.isLt =
      (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
       sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- At an odd point: over what the point before left. -/
theorem outsAt1_B (c : Dev nD) (t : Fin cfg1.N) (h0 : ¬t.val % 2 = 0) (h1 : t.val % 2 = 1) :
    outsAt1 V c t.val t.isLt =
      (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
       sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- Before position `n`: before the first point the scratch is at anything; afterwards at what the point before left. -/
def PhiS (c : Dev nD) : (n : ℕ) → n ≤ cfg1.N → sProp 𝕄
  | 0, _ => Pipeline.ΦA spec1 c
  | n + 1, hn => iprop(iprop(spare c cc0_stg0_0 ∗ spare c cc0_stg0_1 ∗ spare c cc0_stg1_0 ∗ spare c cc0_stg1_1 ∗ spare c cc0_stg2_0 ∗ spare c cc0_stg2_1
          ∗ spare c cc0_stg3_0 ∗ spare c cc0_stg3_1 ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(spare c cc0_stg0_0 ∗ spare c cc0_stg0_1 ∗ spare c cc0_stg1_0 ∗ spare c cc0_stg1_1 ∗ spare c cc0_stg2_0 ∗ spare c cc0_stg2_1
          ∗ spare c cc0_stg3_0 ∗ spare c cc0_stg3_1 ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(spare c cc0_stg0_0 ∗ spare c cc0_stg0_1 ∗ spare c cc0_stg1_0 ∗ spare c cc0_stg1_1 ∗ spare c cc0_stg2_0 ∗ spare c cc0_stg2_1
          ∗ spare c cc0_stg3_0 ∗ spare c cc0_stg3_1 ∗ owns (c : Thread nD τ) scM1_0 fullShare ((outsAt1 V c (n - 1) (by omega)).2)) ∗ (∃ r, prngReg c r)) := by
  cases n with
  | zero => exact absurd rfl hz
  | succ n => rfl

/-! ## The proof data -/

/-- The region's proof data on core `c`: the arrays as the region finds them; after the body at point `t` each input's
    buffer at its block and the output's at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

set_option maxHeartbeats 4800000 in
/-- The body at any point. The inputs' buffers hold their blocks; the parity of the point says which case it is in. At an
    even point the invariant hands over the scratch at anything (before the first point) or at what the point before left
    (which the reset forgets), and takes it back at this point's contents; the output buffer is handed back as found. At an
    odd point the scratch comes at what the even point before left and goes back at this point's contents, and the output
    buffer goes back at this point's tile. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 64 := lt_of_lt_of_eq t.isLt (show cfg1.N = 64 from N_1)
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      iintro ⟨⟨⟨R1, R2, R3, R4, R5, R6, R7, R8, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R1 R2 R3 R4 R5 R6 R7 R8 HS0 Hg]
      · isplitl [R1 R2 R3 R4 R5 R6 R7 R8 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨R1, R2, R3, R4, R5, R6, R7, R8, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [R1 R2 R3 R4 R5 R6 R7 R8 HS0 Hg]
      · isplitl [R1 R2 R3 R4 R5 R6 R7 R8 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have h1 : t.val % 2 = 1 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B_3 sout1_B_0; (try dsimp only)
    have hz : t.val ≠ 0 := by omega
    rw [PhiS_castSucc V c t, PhiS_pos V c _ _ hz]
    iintro ⟨⟨⟨R1, R2, R3, R4, R5, R6, R7, R8, HS0⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [R1 R2 R3 R4 R5 R6 R7 R8 HS0 Hg]
    · isplitl [R1 R2 R3 R4 R5 R6 R7 R8 HS0]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        unfold owns; iexists _; isplitr
        swap; · iexact HS0
        ipureintro; exact View.read_writes_of_cover _ _ _ _ _ (scover1_B_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the region is handed (the invariant of a body that keeps nothing) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives it back: the scratch's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨R1, R2, R3, R4, R5, R6, R7, R8, HS0⟩, Hg⟩
  isplitl [R1 R2 R3 R4 R5 R6 R7 R8 HS0]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS0
  iexact Hg

end Cert.Kernel.Frm

end
-- ==== Proof.Kernel.Run.lean ====
/-
  The whole program, segment by segment.

  @main is: three host operations (the activations flattened to 8192 × 4096 and narrowed, the bias laid out as a row),
  the first kernel region (the effective weight), the second kernel region (the product with the activations plus the
  bias), one host operation (the result given back its batch and position axes). The buffers' contents at each of the
  five boundaries are a fold from the launch memory: a host stretch applies its operations, a region replaces its
  output array by what its write-backs leave and keeps every other buffer. No segment writes an argument, so each
  argument's buffer ends as launched; and every other buffer ends at the fold's last value, in particular the result.
-/
import proofs.«177365_j21225728377224_1_alg».proof.Proof.Kernel.R0
import proofs.«177365_j21225728377224_1_alg».proof.Proof.Kernel.R1
import proofs.«177365_j21225728377224_1_alg».proof.Proof.Gen.Kernel.Regions

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch: the first region's entry. -/
abbrev W1 : Dev nD → Valuation τ sig (Elt F) := fun c => StableHlo.after hostOps0 (W0 m c)
/-- The same read at the core's references. -/
abbrev E0 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (E0 m) c).arrAt w cfg0.N
theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references: the second region's entry. -/
abbrev E1 : (c : Dev nD) → (b : Ref sig .tc) → Buf (Elt F) ((c : Thread nD τ).loc b) := fun c b => W2 m c b
theorem hF0 (c : Dev nD) (w : Fin cfg0.W) : (dat0 (E0 m) c).arrAt w cfg0.N = E1 m c (Pipeline.arrRef spec0 w) :=
  (W2_arr m c w).symm
theorem hrest0 (c : Dev nD) : ∀ b, b ∉ Finset.univ.image (Pipeline.arrRef spec0) → E1 m c b = E0 m c b :=
  fun b hb => W2_of_ne m c b fun w e => hb (Finset.mem_image.mpr ⟨w, Finset.mem_univ _, e⟩)

/-- After the second region. -/
def W3 (c : Dev nD) : Valuation τ sig (Elt F) :=
  Pipeline.withArrays spec1 c (W2 m c) fun w => (dat1 (E1 m) c).arrAt w cfg1.N
theorem W3_arr (c : Dev nD) (w : Fin cfg1.W) :
    W3 m c (Proc.devRef .tc (Pipeline.arrRef spec1 w)) = (dat1 (E1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E2 : (c : Dev nD) → (b : Ref sig .tc) → Buf (Elt F) ((c : Thread nD τ).loc b) := fun c b => W3 m c b
theorem hF1 (c : Dev nD) (w : Fin cfg1.W) : (dat1 (E1 m) c).arrAt w cfg1.N = E2 m c (Pipeline.arrRef spec1 w) :=
  (W3_arr m c w).symm
theorem hrest1 (c : Dev nD) : ∀ b, b ∉ Finset.univ.image (Pipeline.arrRef spec1) → E2 m c b = E1 m c b :=
  fun b hb => W3_of_ne m c b fun w e => hb (Finset.mem_image.mpr ⟨w, Finset.mem_univ _, e⟩)

/-- After the last host stretch: the end. -/
abbrev W4 : Dev nD → Valuation τ sig (Elt F) := fun c => StableHlo.after hostOps2 (W3 m c)

/-! ## The arguments end as launched -/

/-- A reference the first host stretch does not write holds its launch contents at the first region's entry. -/
theorem W1_keep (c : Dev nD) (r : Ref sig .tc) (h : r ∉ hostOps0_W) : W1 m c (Proc.devRef .tc r) = m ((c : Thread nD τ).loc r) :=
  (StableHlo.after_of_writes_sub hostOps0 _ hostOps0_writes h).trans rfl
/-- A reference the last host stretch does not write ends at what the second region left. -/
theorem W4_keep (c : Dev nD) (r : Ref sig .tc) (h : r ∉ hostOps2_W) : W4 m c (Proc.devRef .tc r) = W3 m c (Proc.devRef .tc r) :=
  StableHlo.after_of_writes_sub hostOps2 _ hostOps2_writes h

/-- The activations: no window of either region stages them. -/
theorem W4_main_arg0 (c : Dev nD) : W4 m c (Proc.devRef .tc main_arg0) = m ((c : Thread nD τ).loc main_arg0) :=
  (W4_keep m c main_arg0 (by decide)).trans <| (W3_of_ne m c main_arg0 (by decide)).trans <| (W2_of_ne m c main_arg0 (by decide)).trans <| W1_keep m c main_arg0 (by decide)
/-- The base weight: an input window of the first region. -/
theorem W4_main_arg1 (c : Dev nD) : W4 m c (Proc.devRef .tc main_arg1) = m ((c : Thread nD τ).loc main_arg1) :=
  (W4_keep m c main_arg1 (by decide)).trans <| (W3_of_ne m c main_arg1 (by decide)).trans <|
    ((W2_arr m c 0).trans (((dat0 (E0 m) c).arrAt_in 0 rfl _).trans (A_eq0 (E0 m) c 0))).trans <| W1_keep m c main_arg1 (by decide)
/-- The bias: no window stages it (the second region stages its row layout). -/
theorem W4_main_arg2 (c : Dev nD) : W4 m c (Proc.devRef .tc main_arg2) = m ((c : Thread nD τ).loc main_arg2) :=
  (W4_keep m c main_arg2 (by decide)).trans <| (W3_of_ne m c main_arg2 (by decide)).trans <| (W2_of_ne m c main_arg2 (by decide)).trans <| W1_keep m c main_arg2 (by decide)
/-- The first low-rank factor: an input window of the first region. -/
theorem W4_main_arg3 (c : Dev nD) : W4 m c (Proc.devRef .tc main_arg3) = m ((c : Thread nD τ).loc main_arg3) :=
  (W4_keep m c main_arg3 (by decide)).trans <| (W3_of_ne m c main_arg3 (by decide)).trans <|
    ((W2_arr m c 1).trans (((dat0 (E0 m) c).arrAt_in 1 rfl _).trans (A_eq0 (E0 m) c 1))).trans <| W1_keep m c main_arg3 (by decide)
/-- The second low-rank factor: an input window of the first region. -/
theorem W4_main_arg4 (c : Dev nD) : W4 m c (Proc.devRef .tc main_arg4) = m ((c : Thread nD τ).loc main_arg4) :=
  (W4_keep m c main_arg4 (by decide)).trans <| (W3_of_ne m c main_arg4 (by decide)).trans <|
    ((W2_arr m c 2).trans (((dat0 (E0 m) c).arrAt_in 2 rfl _).trans (A_eq0 (E0 m) c 2))).trans <| W1_keep m c main_arg4 (by decide)

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev Rd (c : Dev nD) : sProp 𝕄 := iprop((∃ r, prngReg c r) ∗ ∃ W, owes (c : Thread nD τ) (0 : CellTallies nD τ sig Unit) W)
/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

/-- What rides along ends owing nothing. -/
theorem Rd_owes (c : Dev nD) : (Rd c : sProp 𝕄) ⊢ iprop(∃ W, owes (c : Thread nD τ) (0 : CellTallies nD τ sig Unit) W) := by
  iintro ⟨-, H⟩
  iexact H

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents. -/
abbrev Tₙ (c : Dev nD) : sProp 𝕄 := StableHlo.held (c : Thread nD τ) (Pipeline.ucRefs τ sig) (W4 m c)

/-! ## The regions as segments -/

set_option backward.isDefEq.respectTransparency.types false in
/-- The first region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. Its invariant starts as the one of a
    body that keeps nothing and ends as one (the scratch's contents forgotten). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W2 m c) ∗ Rd c)
  post c := iprop(StableHlo.held (c : Thread nD τ) (Pipeline.ucRefs τ sig) (W3 m c) ∗ Rd c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : ∀ (P Q : sProp 𝕄), iprop((∃ r, prngReg c r) ∗ P ∗ Q) ⊢ iprop(Q ∗ ∃ r, prngReg c r) := by
      intro P Q
      iintro ⟨Hp, -, Hr⟩
      isplitl [Hr]; · iexact Hr
      iexact Hp
    exact (key _ _).trans (hin1 (E1 m) c)
  hout c := by
    have key : ∀ (Q : sProp 𝕄), iprop(Q ∗ ∃ r, prngReg c r) ⊢ iprop((∃ r, prngReg c r) ∗ BI.emp ∗ Q) := by
      intro Q
      iintro ⟨Hr, Hp⟩
      isplitl [Hp]; · iexact Hp
      isplitr; · iempintro
      iexact Hr
    rw [Pipeline.ownSems0_none]
    exact (hout1 (E1 m) c).trans (key _)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tₙ m)
    (hch := ⟨fun _ => .rfl, fun _ => .rfl, fun _ => .rfl, fun _ => .rfl, fun c => sep_mono .rfl (Rd_owes c)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      show iprop(StableHlo.held (c : Thread nD τ) (Pipeline.ucRefs τ sig) (W4 m c) ∗ SI s') ⊢ _
      unfold StableHlo.held
      iintro ⟨Hh, HSI⟩
      imodintro
      iapply (pointsTo_read_all (Pipeline.ucRefs τ sig) (fun b => (((c : Thread nD τ)).1, b)) (W4 m c) s')
      isplitl [Hh] <;> iassumption)
    (hQ := fun s h => h)

/-- THE FRAME: every argument's buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.Kernel.Frm

end
-- ==== Proof.KernelIdeal.R0.lean ====
/-
  The first kernel region: the effective weight, tile by tile.

  The grid is 4 × 4. At point (i, j) the body reads the 1024 × 1024 tile (i, j) of the base weight, the 1024 × 16
  row band i of the first low-rank factor and the 16 × 1024 column band j of the second, multiplies the two bands
  into a zero accumulator, adds the weight tile, narrows the sum and stores it as the whole 1024 × 1024 tile (i, j)
  of the result. So each output tile is one function of three input blocks, the body keeps nothing between points,
  and an input band that is not fetched again at a point still holds the block the point needs.
-/
import proofs.«177365_j21225728377224_1_alg».proof.Proof.Gen.KernelIdeal.Launch
import proofs.«177365_j21225728377224_1_alg».proof.Proof.Gen.KernelIdeal.Skeleton
import proofs.«177365_j21225728377224_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered: a parameter, instantiated by the run
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: where the pipeline does
    not fetch, the block index has not moved. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it stores -/

abbrev r0_w : Rect S1024x1024 := Rect.unit (s := S1024x1024) ![0, 0] S1024x1024.size inb_S1024x1024_S1024x1024_0_0
abbrev r0_a : Rect S1024x16 := Rect.unit (s := S1024x16) ![0, 0] S1024x16.size inb_S1024x16_S1024x16_0_0
abbrev r0_b : Rect S16x1024 := Rect.unit (s := S16x1024) ![0, 0] S16x1024.size inb_S16x1024_S16x1024_0_0

/-- The output tile from the three input blocks: the body's one store, over the whole tile. -/
def out0_3 (x0 : Vec F S1024x1024 .f32) (x1 : Vec F S1024x16 .f32) (x2 : Vec F S16x1024 .f32) : Vec F S1024x1024 .bf16 :=
  View.canon [⟨r0_w, k0_pay1 (View.ld x1 r0_a) (View.ld x2 r0_b) (View.ld x0 r0_w)⟩]

/-- The one store covers the tile. -/
theorem cover0_3 (p0 : Vec F S1024x1024 .bf16) (y : S1024x1024.Idx) :
    ∃ pc ∈ ([⟨r0_w, p0⟩] : List (View.Piece (Elt F) S1024x1024 .bf16)), y ∈ pc.1.set :=
  View.cover_of_tiled [⟨r0_w, p0⟩] S1024x1024.size (by rfl) y

/-! ## The body's triple -/

set_option maxHeartbeats 1000000 in
/-- On whole buffers, the three inputs' at contents `x0`, `x1`, `x2` and the output's at anything, the body runs to
    the continuation holding the inputs' as they were and the output's at `out0_3` of them. -/
theorem sound_kernel0 (c : Dev nD) (E : Set ℕ) (i : grid0.Coords)
    (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x1024 .bf16) (harg5 : arg5.IsWhole)
    (x0 : Vec F S1024x1024 .f32) (x1 : Vec F S1024x16 .f32) (x2 : Vec F S16x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__combine_kernel i arg2 harg2 arg3 harg3 arg4 harg4 arg5 harg5) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The region's proof data on core `c`: the arrays as the region finds them; after the body at point `t` each input's
    buffer at its block and the output's at `out0_3` of the three blocks; the invariant the scoped buffers no window
    stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KernelIdeal.R1Run.lean ====
/-
  The second kernel region's body, case by case.

  The grid is 8 × 4 × 2; the last axis walks the two halves of the contracted axis. The body branches twice on
  that coordinate `k`: at `k = 0` it first fills the accumulator scratch with zeros; at every point it adds the
  product of the activation block with the weight block (contracted over their second axes) to the accumulator;
  at `k = 1` it adds the bias row, broadcast down the rows, and stores the sum as the output tile. On this grid
  `k = 0` exactly at the even points and `k = 1` exactly at the odd ones, so there are two cases: an even point
  resets and accumulates and leaves the output buffer untouched (the window is idle there and not written back),
  an odd point accumulates onto what the even point before it left and stores the output.
-/
import proofs.«177365_j21225728377224_1_alg».proof.Proof.Gen.KernelIdeal.Launch
import proofs.«177365_j21225728377224_1_alg».proof.Proof.Gen.KernelIdeal.Skeleton
import proofs.«177365_j21225728377224_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions, decided over the grid -/

/-- "The last grid coordinate is 0", as the body computes it. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- "The last grid coordinate is 1", as the body computes it. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- At an even point the output window is idle: the body stores nothing into it, -/
theorem idleAt1_3_A : ∀ t : Fin cfg1.N, cond1_0 (grid1.coords t) → ¬cond1_1 (grid1.coords t) → cfg1.idle 3 (grid1.coords t) = true := by decide +kernel
/-- and the pipeline does not write its block back. -/
theorem noFlush1_3_A : ∀ t : Fin cfg1.N, cond1_0 (grid1.coords t) → ¬cond1_1 (grid1.coords t) → (cfg1.win 3).flush t = false := by decide +kernel
/-- At an odd point the output window is live. -/
theorem liveAt1_3_B : ∀ t : Fin cfg1.N, ¬cond1_0 (grid1.coords t) → cond1_1 (grid1.coords t) → cfg1.idle 3 (grid1.coords t) = false := by decide +kernel

/-! ## The buffers the body is called on -/

/-- One buffer of the output window, through which its contents are stated (the choice does not matter). -/
abbrev VO1_3 : View sig .tc .vmem S1024x1024 .f32 := (Memref.whole cc1_stg3_0 : Memref sig .tc .vmem S1024x1024 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator scratch, a whole scoped buffer of the kernel's own, and the view its contents are stated through. -/
abbrev scM1_0 : Memref sig .tc .vmem S1024x1024 .f32 := Memref.whole cc1_scratch0
abbrev VS1_0 : View sig .tc .vmem S1024x1024 .f32 := scM1_0.view

/-- A scoped buffer this region does not use, whole at some contents. -/
abbrev spare (c : Dev nD) (b : Ref sig .tc) : sProp 𝕄 :=
  iprop(∃ f : Buf (Elt F) ((c : Thread nD τ).loc b), ((c : Thread nD τ).loc b) ↦{fullShare} f)

/-- The region invariant of a body that keeps nothing, spelt out: the first region's eight staging buffers at some
    contents each, the accumulator scratch owned at some contents, the generator register at some state. -/
theorem PhiA1_eq (c : Dev nD) :
    (Pipeline.ΦA spec1 c : sProp 𝕄)
      = iprop(iprop(spare c cc0_stg0_0 ∗ spare c cc0_stg0_1 ∗ spare c cc0_stg1_0 ∗ spare c cc0_stg1_1 ∗ spare c cc0_stg2_0 ∗ spare c cc0_stg2_1
          ∗ spare c cc0_stg3_0 ∗ spare c cc0_stg3_1 ∗ (∃ d, owns (c : Thread nD τ) scM1_0 fullShare d)) ∗ (∃ r, prngReg c r)) := by
  unfold Pipeline.ΦA; rw [scopedRest1_eq]; simp only [scM1_0, owns_whole]; try rfl

/-! ## The body's triple in each case -/

set_option maxHeartbeats 2000000 in
/-- AN EVEN POINT (first branch taken, second not). On whole buffers — the three inputs' at their contents, the output's
    at contents handed back untouched, the scratch at anything — the body runs to the continuation holding all four as
    they were and the scratch with the pieces `LS0` written: the pieces are found by the run. -/
noncomputable def kernelRun1_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 2000000 in
/-- AN ODD POINT (first branch not taken, second taken). On whole buffers — the three inputs' at their contents, the
    output's at anything, the scratch at the contents `xs0` the point before left — the body runs to the continuation
    holding the inputs' as they were, the output's with the pieces `L3` written and the scratch with `LS0` written. -/
noncomputable def kernelRun1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Frm

end
-- ==== Proof.KernelIdeal.R1.lean ====
/-
  The second kernel region, point by point.

  What the output tile's buffer and the accumulator scratch hold after each point, by recursion on the point: an even
  point leaves the scratch at what its run stores (the zero fill, then the first half's product added) and does not
  touch the output buffer; an odd point leaves the scratch at the second half's product added to what the even point
  before it left, and the output buffer at that sum plus the bias row. The region invariant carries the scratch at
  exactly those contents from one point to the next; before the first point, and again after the last, the scratch is
  at some contents nobody names.
-/
import proofs.«177365_j21225728377224_1_alg».proof.Proof.KernelIdeal.R1Run

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- An even point stores nothing into the output buffer: a placeholder nothing consults (the window is idle and not
    written back there). -/
def out1_A_3 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- An even point's stores into the scratch cover it. -/
theorem scover1_A_0 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What an even point leaves in the scratch. -/
def sout1_A_0 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- An odd point's one store into the output buffer covers it. -/
theorem cover1_B_3 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x1024.size (by sl_kernel_rfl) y

/-- What an odd point leaves in the output buffer. -/
def out1_B_3 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- An odd point's store into the scratch covers it. -/
theorem scover1_B_0 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What an odd point leaves in the scratch. -/
def sout1_B_0 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-! ## What the output buffer and the scratch hold after each point -/

/-- After the body at position `n`: (the output buffer, the scratch). Even `n`: the even case at the point's blocks.
    Odd `n`: the odd case at the point's blocks over the scratch the point before left. -/
def outsAt1 (c : Dev nD) : (n : ℕ) → n < cfg1.N → Vec F S1024x1024 .f32 × Vec F S1024x1024 .f32
  | 0, hn =>
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (by omega : ¬(n + 1) % 2 = 1) ((hcond1_1 ⟨n + 1, hn⟩).mp h)) (iblk1 V c 0 ⟨n + 1, hn⟩) (iblk1 V c 1 ⟨n + 1, hn⟩) (iblk1 V c 2 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (by omega : ¬(n + 1) % 2 = 1) ((hcond1_1 ⟨n + 1, hn⟩).mp h)) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr (show (n + 1) % 2 = 1 by omega)) (iblk1 V c 0 ⟨n + 1, hn⟩) (iblk1 V c 1 ⟨n + 1, hn⟩) (iblk1 V c 2 ⟨n + 1, hn⟩) (outsAt1 c n (Nat.lt_of_succ_lt hn)).2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr (show (n + 1) % 2 = 1 by omega)) (iblk1 V c 0 ⟨n + 1, hn⟩) (iblk1 V c 1 ⟨n + 1, hn⟩) (iblk1 V c 2 ⟨n + 1, hn⟩) (outsAt1 c n (Nat.lt_of_succ_lt hn)).2)

/-- At an even point. -/
theorem outsAt1_A (c : Dev nD) (t : Fin cfg1.N) (h0 : t.val % 2 = 0) (h1 : ¬t.val % 2 = 1) :
    outsAt1 V c t.val t.isLt =
      (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
       sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- At an odd point: over what the point before left. -/
theorem outsAt1_B (c : Dev nD) (t : Fin cfg1.N) (h0 : ¬t.val % 2 = 0) (h1 : t.val % 2 = 1) :
    outsAt1 V c t.val t.isLt =
      (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
       sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- Before position `n`: before the first point the scratch is at anything; afterwards at what the point before left. -/
def PhiS (c : Dev nD) : (n : ℕ) → n ≤ cfg1.N → sProp 𝕄
  | 0, _ => Pipeline.ΦA spec1 c
  | n + 1, hn => iprop(iprop(spare c cc0_stg0_0 ∗ spare c cc0_stg0_1 ∗ spare c cc0_stg1_0 ∗ spare c cc0_stg1_1 ∗ spare c cc0_stg2_0 ∗ spare c cc0_stg2_1
          ∗ spare c cc0_stg3_0 ∗ spare c cc0_stg3_1 ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(spare c cc0_stg0_0 ∗ spare c cc0_stg0_1 ∗ spare c cc0_stg1_0 ∗ spare c cc0_stg1_1 ∗ spare c cc0_stg2_0 ∗ spare c cc0_stg2_1
          ∗ spare c cc0_stg3_0 ∗ spare c cc0_stg3_1 ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(spare c cc0_stg0_0 ∗ spare c cc0_stg0_1 ∗ spare c cc0_stg1_0 ∗ spare c cc0_stg1_1 ∗ spare c cc0_stg2_0 ∗ spare c cc0_stg2_1
          ∗ spare c cc0_stg3_0 ∗ spare c cc0_stg3_1 ∗ owns (c : Thread nD τ) scM1_0 fullShare ((outsAt1 V c (n - 1) (by omega)).2)) ∗ (∃ r, prngReg c r)) := by
  cases n with
  | zero => exact absurd rfl hz
  | succ n => rfl

/-! ## The proof data -/

/-- The region's proof data on core `c`: the arrays as the region finds them; after the body at point `t` each input's
    buffer at its block and the output's at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

set_option maxHeartbeats 4800000 in
/-- The body at any point. The inputs' buffers hold their blocks; the parity of the point says which case it is in. At an
    even point the invariant hands over the scratch at anything (before the first point) or at what the point before left
    (which the reset forgets), and takes it back at this point's contents; the output buffer is handed back as found. At an
    odd point the scratch comes at what the even point before left and goes back at this point's contents, and the output
    buffer goes back at this point's tile. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 64 := lt_of_lt_of_eq t.isLt (show cfg1.N = 64 from N_1)
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      iintro ⟨⟨⟨R1, R2, R3, R4, R5, R6, R7, R8, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R1 R2 R3 R4 R5 R6 R7 R8 HS0 Hg]
      · isplitl [R1 R2 R3 R4 R5 R6 R7 R8 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨R1, R2, R3, R4, R5, R6, R7, R8, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [R1 R2 R3 R4 R5 R6 R7 R8 HS0 Hg]
      · isplitl [R1 R2 R3 R4 R5 R6 R7 R8 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have h1 : t.val % 2 = 1 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B_3 sout1_B_0; (try dsimp only)
    have hz : t.val ≠ 0 := by omega
    rw [PhiS_castSucc V c t, PhiS_pos V c _ _ hz]
    iintro ⟨⟨⟨R1, R2, R3, R4, R5, R6, R7, R8, HS0⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [R1 R2 R3 R4 R5 R6 R7 R8 HS0 Hg]
    · isplitl [R1 R2 R3 R4 R5 R6 R7 R8 HS0]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        unfold owns; iexists _; isplitr
        swap; · iexact HS0
        ipureintro; exact View.read_writes_of_cover _ _ _ _ _ (scover1_B_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the region is handed (the invariant of a body that keeps nothing) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives it back: the scratch's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨R1, R2, R3, R4, R5, R6, R7, R8, HS0⟩, Hg⟩
  isplitl [R1 R2 R3 R4 R5 R6 R7 R8 HS0]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS0
  iexact Hg

end Cert.KernelIdeal.Frm

end
-- ==== Proof.KernelIdeal.Run.lean ====
/-
  The whole program, segment by segment.

  @main is: three host operations (the activations flattened to 8192 × 4096 and narrowed, the bias laid out as a row),
  the first kernel region (the effective weight), the second kernel region (the product with the activations plus the
  bias), one host operation (the result given back its batch and position axes). The buffers' contents at each of the
  five boundaries are a fold from the launch memory: a host stretch applies its operations, a region replaces its
  output array by what its write-backs leave and keeps every other buffer. No segment writes an argument, so each
  argument's buffer ends as launched; and every other buffer ends at the fold's last value, in particular the result.
-/
import proofs.«177365_j21225728377224_1_alg».proof.Proof.KernelIdeal.R0
import proofs.«177365_j21225728377224_1_alg».proof.Proof.KernelIdeal.R1
import proofs.«177365_j21225728377224_1_alg».proof.Proof.Gen.KernelIdeal.Regions

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch: the first region's entry. -/
abbrev W1 : Dev nD → Valuation τ sig (Elt F) := fun c => StableHlo.after hostOps0 (W0 m c)
/-- The same read at the core's references. -/
abbrev E0 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (E0 m) c).arrAt w cfg0.N
theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references: the second region's entry. -/
abbrev E1 : (c : Dev nD) → (b : Ref sig .tc) → Buf (Elt F) ((c : Thread nD τ).loc b) := fun c b => W2 m c b
theorem hF0 (c : Dev nD) (w : Fin cfg0.W) : (dat0 (E0 m) c).arrAt w cfg0.N = E1 m c (Pipeline.arrRef spec0 w) :=
  (W2_arr m c w).symm
theorem hrest0 (c : Dev nD) : ∀ b, b ∉ Finset.univ.image (Pipeline.arrRef spec0) → E1 m c b = E0 m c b :=
  fun b hb => W2_of_ne m c b fun w e => hb (Finset.mem_image.mpr ⟨w, Finset.mem_univ _, e⟩)

/-- After the second region. -/
def W3 (c : Dev nD) : Valuation τ sig (Elt F) :=
  Pipeline.withArrays spec1 c (W2 m c) fun w => (dat1 (E1 m) c).arrAt w cfg1.N
theorem W3_arr (c : Dev nD) (w : Fin cfg1.W) :
    W3 m c (Proc.devRef .tc (Pipeline.arrRef spec1 w)) = (dat1 (E1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E2 : (c : Dev nD) → (b : Ref sig .tc) → Buf (Elt F) ((c : Thread nD τ).loc b) := fun c b => W3 m c b
theorem hF1 (c : Dev nD) (w : Fin cfg1.W) : (dat1 (E1 m) c).arrAt w cfg1.N = E2 m c (Pipeline.arrRef spec1 w) :=
  (W3_arr m c w).symm
theorem hrest1 (c : Dev nD) : ∀ b, b ∉ Finset.univ.image (Pipeline.arrRef spec1) → E2 m c b = E1 m c b :=
  fun b hb => W3_of_ne m c b fun w e => hb (Finset.mem_image.mpr ⟨w, Finset.mem_univ _, e⟩)

/-- After the last host stretch: the end. -/
abbrev W4 : Dev nD → Valuation τ sig (Elt F) := fun c => StableHlo.after hostOps2 (W3 m c)

/-! ## The arguments end as launched -/

/-- A reference the first host stretch does not write holds its launch contents at the first region's entry. -/
theorem W1_keep (c : Dev nD) (r : Ref sig .tc) (h : r ∉ hostOps0_W) : W1 m c (Proc.devRef .tc r) = m ((c : Thread nD τ).loc r) :=
  (StableHlo.after_of_writes_sub hostOps0 _ hostOps0_writes h).trans rfl
/-- A reference the last host stretch does not write ends at what the second region left. -/
theorem W4_keep (c : Dev nD) (r : Ref sig .tc) (h : r ∉ hostOps2_W) : W4 m c (Proc.devRef .tc r) = W3 m c (Proc.devRef .tc r) :=
  StableHlo.after_of_writes_sub hostOps2 _ hostOps2_writes h

/-- The activations: no window of either region stages them. -/
theorem W4_main_arg0 (c : Dev nD) : W4 m c (Proc.devRef .tc main_arg0) = m ((c : Thread nD τ).loc main_arg0) :=
  (W4_keep m c main_arg0 (by decide)).trans <| (W3_of_ne m c main_arg0 (by decide)).trans <| (W2_of_ne m c main_arg0 (by decide)).trans <| W1_keep m c main_arg0 (by decide)
/-- The base weight: an input window of the first region. -/
theorem W4_main_arg1 (c : Dev nD) : W4 m c (Proc.devRef .tc main_arg1) = m ((c : Thread nD τ).loc main_arg1) :=
  (W4_keep m c main_arg1 (by decide)).trans <| (W3_of_ne m c main_arg1 (by decide)).trans <|
    ((W2_arr m c 0).trans (((dat0 (E0 m) c).arrAt_in 0 rfl _).trans (A_eq0 (E0 m) c 0))).trans <| W1_keep m c main_arg1 (by decide)
/-- The bias: no window stages it (the second region stages its row layout). -/
theorem W4_main_arg2 (c : Dev nD) : W4 m c (Proc.devRef .tc main_arg2) = m ((c : Thread nD τ).loc main_arg2) :=
  (W4_keep m c main_arg2 (by decide)).trans <| (W3_of_ne m c main_arg2 (by decide)).trans <| (W2_of_ne m c main_arg2 (by decide)).trans <| W1_keep m c main_arg2 (by decide)
/-- The first low-rank factor: an input window of the first region. -/
theorem W4_main_arg3 (c : Dev nD) : W4 m c (Proc.devRef .tc main_arg3) = m ((c : Thread nD τ).loc main_arg3) :=
  (W4_keep m c main_arg3 (by decide)).trans <| (W3_of_ne m c main_arg3 (by decide)).trans <|
    ((W2_arr m c 1).trans (((dat0 (E0 m) c).arrAt_in 1 rfl _).trans (A_eq0 (E0 m) c 1))).trans <| W1_keep m c main_arg3 (by decide)
/-- The second low-rank factor: an input window of the first region. -/
theorem W4_main_arg4 (c : Dev nD) : W4 m c (Proc.devRef .tc main_arg4) = m ((c : Thread nD τ).loc main_arg4) :=
  (W4_keep m c main_arg4 (by decide)).trans <| (W3_of_ne m c main_arg4 (by decide)).trans <|
    ((W2_arr m c 2).trans (((dat0 (E0 m) c).arrAt_in 2 rfl _).trans (A_eq0 (E0 m) c 2))).trans <| W1_keep m c main_arg4 (by decide)

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev Rd (c : Dev nD) : sProp 𝕄 := iprop((∃ r, prngReg c r) ∗ ∃ W, owes (c : Thread nD τ) (0 : CellTallies nD τ sig Unit) W)
/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

/-- What rides along ends owing nothing. -/
theorem Rd_owes (c : Dev nD) : (Rd c : sProp 𝕄) ⊢ iprop(∃ W, owes (c : Thread nD τ) (0 : CellTallies nD τ sig Unit) W) := by
  iintro ⟨-, H⟩
  iexact H

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents. -/
abbrev Tₙ (c : Dev nD) : sProp 𝕄 := StableHlo.held (c : Thread nD τ) (Pipeline.ucRefs τ sig) (W4 m c)

/-! ## The regions as segments -/

set_option backward.isDefEq.respectTransparency.types false in
/-- The first region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. Its invariant starts as the one of a
    body that keeps nothing and ends as one (the scratch's contents forgotten). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W2 m c) ∗ Rd c)
  post c := iprop(StableHlo.held (c : Thread nD τ) (Pipeline.ucRefs τ sig) (W3 m c) ∗ Rd c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : ∀ (P Q : sProp 𝕄), iprop((∃ r, prngReg c r) ∗ P ∗ Q) ⊢ iprop(Q ∗ ∃ r, prngReg c r) := by
      intro P Q
      iintro ⟨Hp, -, Hr⟩
      isplitl [Hr]; · iexact Hr
      iexact Hp
    exact (key _ _).trans (hin1 (E1 m) c)
  hout c := by
    have key : ∀ (Q : sProp 𝕄), iprop(Q ∗ ∃ r, prngReg c r) ⊢ iprop((∃ r, prngReg c r) ∗ BI.emp ∗ Q) := by
      intro Q
      iintro ⟨Hr, Hp⟩
      isplitl [Hp]; · iexact Hp
      isplitr; · iempintro
      iexact Hr
    rw [Pipeline.ownSems0_none]
    exact (hout1 (E1 m) c).trans (key _)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tₙ m)
    (hch := ⟨fun _ => .rfl, fun _ => .rfl, fun _ => .rfl, fun _ => .rfl, fun c => sep_mono .rfl (Rd_owes c)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      show iprop(StableHlo.held (c : Thread nD τ) (Pipeline.ucRefs τ sig) (W4 m c) ∗ SI s') ⊢ _
      unfold StableHlo.held
      iintro ⟨Hh, HSI⟩
      imodintro
      iapply (pointsTo_read_all (Pipeline.ucRefs τ sig) (fun b => (((c : Thread nD τ)).1, b)) (W4 m c) s')
      isplitl [Hh] <;> iassumption)
    (hQ := fun s h => h)

/-- THE FRAME: every argument's buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.KernelIdeal.Frm

end
-- ==== Proof.Spec.lean ====
/-
  What both programs compute, index by index, over the extended reals.

  With `x : [4, 2048, 4096]`, `W : [4096, 4096]`, `b : [4096]`, `A : [4096, 16]`, `B : [16, 4096]` the LoRA update of
  row `o` and column `i` is `∑ r, A[o, r] · B[r, i]`. The kernel first forms the effective weight
  `W[o, i] + ∑ r, A[o, r] · B[r, i]` and contracts `x` with it, the contracted axis cut in two halves of 2048 that are
  added one after the other into an accumulator that starts at zero, and the bias last (`kerVal`); the reference
  contracts `x` with `W`, adds the bias, and adds the contraction of `x` with the update (`refVal`). On finite
  inputs the two agree: the product distributes over the sum of the two weights, a sum over 4096 indices is the
  sum over its two halves, and addition is commutative and associative.
-/
import Idealize.ShloMosaic.PureOps.Ideal
import Idealize.ShloMosaic.Lib.ValueIdx
import Mathlib.Algebra.BigOperators.Fin
import Mathlib.Data.EReal.Basic
import Mathlib.Tactic.Ring

noncomputable section

open scoped BigOperators

namespace Cert.Spec

open Idealize.ShloMosaic Idealize.ShloMosaic.ValueIdx

abbrev SX : Shape := ⟨3, ![4, 2048, 4096]⟩
abbrev SW : Shape := ⟨2, ![4096, 4096]⟩
abbrev Sb : Shape := ⟨1, ![4096]⟩
abbrev SA : Shape := ⟨2, ![4096, 16]⟩
abbrev SB : Shape := ⟨2, ![16, 4096]⟩

/-- The low-rank update's entry at row `o`, column `i`. -/
def lora (A : SA.Idx → EReal) (B : SB.Idx → EReal) (o i : Fin 4096) : EReal :=
  ∑ r : Fin 16, A (ix2 o r) * B (ix2 r i)

/-- The effective weight: the base weight plus the low-rank update. -/
def weff (W : SW.Idx → EReal) (A : SA.Idx → EReal) (B : SB.Idx → EReal) (o i : Fin 4096) : EReal :=
  W (ix2 o i) + lora A B o i

/-- The contracted axis' first half `[0, 2048)` and second half `[2048, 4096)`. -/
def lo (k : Fin 2048) : Fin 4096 := ⟨k.val, by omega⟩
def hi (k : Fin 2048) : Fin 4096 := ⟨2048 + k.val, by omega⟩

/-- The kernel's entry at batch `p`, position `s`, output feature `o`: zero, plus the first half of the contraction
    with the effective weight, plus the second half, plus the bias. -/
def kerVal (x : SX.Idx → EReal) (W : SW.Idx → EReal) (b : Sb.Idx → EReal) (A : SA.Idx → EReal) (B : SB.Idx → EReal)
    (p : Fin 4) (s : Fin 2048) (o : Fin 4096) : EReal :=
  ((0 + ∑ k : Fin 2048, x (ix3 p s (lo k)) * weff W A B o (lo k))
    + ∑ k : Fin 2048, x (ix3 p s (hi k)) * weff W A B o (hi k)) + b (ix1 o)

/-- The reference's entry: the base layer (contraction with `W`, plus the bias) plus the contraction with the update. -/
def refVal (x : SX.Idx → EReal) (W : SW.Idx → EReal) (b : Sb.Idx → EReal) (A : SA.Idx → EReal) (B : SB.Idx → EReal)
    (p : Fin 4) (s : Fin 2048) (o : Fin 4096) : EReal :=
  ((∑ i : Fin 4096, x (ix3 p s i) * W (ix2 o i)) + b (ix1 o)) + ∑ i : Fin 4096, x (ix3 p s i) * lora A B o i

/-- The coercion of the reals into the extended reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum over the 4096 indices is the sum over the first half plus the sum over the second half. -/
theorem sum_halves {M : Type*} [AddCommMonoid M] (f : Fin 4096 → M) :
    ∑ i : Fin 4096, f i = ∑ k : Fin 2048, f (lo k) + ∑ k : Fin 2048, f (hi k) := by
  have h := Fin.sum_univ_add (a := 2048) (b := 2048) f
  have hlo : ∀ k : Fin 2048, (Fin.castAdd 2048 k : Fin (2048 + 2048)) = lo k := fun k => Fin.ext rfl
  have hhi : ∀ k : Fin 2048, (Fin.natAdd 2048 k : Fin (2048 + 2048)) = hi k := fun k => Fin.ext rfl
  simp only [hlo, hhi] at h
  exact h

/-- The identity over the reals: the product distributes over the sum of the two weights, the full sums split in
    their two halves, and the terms are reordered. -/
theorem real_identity (xf wf lf : Fin 4096 → ℝ) (bo : ℝ) :
    ((0 + ∑ k : Fin 2048, xf (lo k) * (wf (lo k) + lf (lo k)))
        + ∑ k : Fin 2048, xf (hi k) * (wf (hi k) + lf (hi k))) + bo
      = ((∑ i : Fin 4096, xf i * wf i) + bo) + ∑ i : Fin 4096, xf i * lf i := by
  rw [sum_halves (fun i => xf i * wf i), sum_halves (fun i => xf i * lf i)]
  simp only [mul_add, Finset.sum_add_distrib]
  ring

/-- On real inputs the low-rank update's entry is the coercion of the real sum of products. -/
theorem lora_coe (A : SA.Idx → ℝ) (B : SB.Idx → ℝ) (o i : Fin 4096) :
    lora (fun j => (A j : EReal)) (fun j => (B j : EReal)) o i
      = ((∑ r : Fin 16, A (ix2 o r) * B (ix2 r i) : ℝ) : EReal) := by
  simp only [lora, coe_sum, EReal.coe_mul]

/-- On real (finite) inputs the kernel's entry is the reference's. -/
theorem kerVal_eq_refVal (x : SX.Idx → ℝ) (W : SW.Idx → ℝ) (b : Sb.Idx → ℝ) (A : SA.Idx → ℝ) (B : SB.Idx → ℝ)
    (p : Fin 4) (s : Fin 2048) (o : Fin 4096) :
    kerVal (fun i => (x i : EReal)) (fun i => (W i : EReal)) (fun i => (b i : EReal)) (fun i => (A i : EReal)) (fun i => (B i : EReal)) p s o
      = refVal (fun i => (x i : EReal)) (fun i => (W i : EReal)) (fun i => (b i : EReal)) (fun i => (A i : EReal)) (fun i => (B i : EReal)) p s o := by
  have h := real_identity (fun i => x (ix3 p s i)) (fun i => W (ix2 o i))
    (fun i => ∑ r : Fin 16, A (ix2 o r) * B (ix2 r i)) (b (ix1 o))
  have h' := congrArg (fun v : ℝ => (v : EReal)) h
  simp only [EReal.coe_add, coe_sum, EReal.coe_mul, EReal.coe_zero] at h'
  simp only [kerVal, refVal, weff, lora_coe, coe_sum, EReal.coe_mul]
  exact h'

end Cert.Spec

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.KVal0.lean ====
/-
  The first region's result is the effective weight.

  Each of the 16 grid points writes back one 1024 × 1024 tile of the result, computed from the weight tile and the two
  low-rank bands at the same tile coordinates; the tiles partition the 4096 × 4096 array. Entry (o, i) lies in the tile
  of point (o / 1024, i / 1024), and that tile's entry is the weight's entry (o, i) plus the sum over the rank index r
  of the first factor's entry (o, r) times the second factor's entry (r, i): narrowing is the identity on the
  extended reals and a product into a zero accumulator is the plain sum of products.
-/
import proofs.«177365_j21225728377224_1_alg».proof.Proof.KernelIdeal.R0
import proofs.«177365_j21225728377224_1_alg».proof.Proof.Spec
import proofs.«177365_j21225728377224_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KVal0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm

variable (V : (c : Dev nD) → (b : Ref sig .tc) → Buf (Elt Ideal) ((c : Thread nD τ).loc b))

/-- The zero offsets of a whole-tile access, as a constant function. -/
theorem hz : (![0, 0] : Fin 2 → Nat) = fun _ => 0 :=
  funext fun a => match a with | ⟨0, _⟩ => rfl | ⟨1, _⟩ => rfl

/-- The body's product contracts the left band's axis 1 with the right band's axis 0 and has no batch axes. -/
theorem plain0 : PlainDot.IsPlain dot_S1024x16_S16x1024_S1024x1024_1_0_0_1_n_n := ⟨rfl, rfl, rfl, rfl, rfl, rfl⟩

/-- The tile's entry (p, q): the weight tile's entry plus the sum over the rank index of the products of the bands'
    entries. -/
theorem pay_apply (v0 : Vec Ideal S1024x16 .f32) (v1 : Vec Ideal S16x1024 .f32) (v3 : Vec Ideal S1024x1024 .f32)
    (p q : Fin 1024) :
    k0_pay1 (F := Ideal) v0 v1 v3 (ix2 p q) = v3 (ix2 p q) + ∑ r : Fin 16, v0 (ix2 p r) * v1 (ix2 r q) := by
  unfold k0_pay1
  rw [truncf_apply, addf_apply]
  exact congrArg (v3 (ix2 p q) + ·) (PlainDot.matmul_zero_plain _ plain0 (some .fp32) v0 v1 p q)

/-- The four index maps at every grid point: at point `t` the weight tile and the output tile are tile
    (t / 4, t % 4), the first factor's band is row band t / 4 and the second factor's is column band t % 4. -/
theorem idx_facts : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = t.val % 4 :=
  (by decide +kernel : ∀ t : Fin grid0.N, _)

/-- The whole result array: entry (o, i) is the effective weight's. -/
abbrev G (W : S4096x4096.Idx → EReal) (A : S4096x16.Idx → EReal) (B : S16x4096.Idx → EReal) :
    S4096x4096.Idx → Elt Ideal .bf16 := fun j => Cert.Spec.weff W A B (j 0) (j 1)

/-- A grid point is one of 16. -/
theorem t_lt (t : Fin cfg0.N) : t.val < 16 := Nat.lt_of_lt_of_eq t.isLt N_0

/-- Row `p` of a tile in tile row `t / 4`, and column `q` of a tile in tile column `t % 4`, as coordinates of the
    whole array. -/
def row (t : Fin cfg0.N) (p : Fin 1024) : Fin 4096 := ⟨t.val / 4 * 1024 + p.val, by have := t_lt t; omega⟩
def col (t : Fin cfg0.N) (q : Fin 1024) : Fin 4096 := ⟨t.val % 4 * 1024 + q.val, by omega⟩

/-- The weight's tile at point `t`, entry (p, q), is the weight's entry (row, col). -/
theorem blk0 (c : Dev nD) (t : Fin cfg0.N) (p q : Fin 1024) :
    (iblk0 (F := Ideal) V c 0 t : Vec Ideal S1024x1024 .f32) (ix2 p q)
      = (V c main_arg1 : S4096x4096.Idx → EReal) (ix2 (row t p) (col t q)) := by
  obtain ⟨e0, e1, -⟩ := idx_facts t
  unfold iblk0
  rw [View.read_apply]
  show V c main_arg1 _ = V c main_arg1 _
  congr 1
  funext a
  apply Fin.ext
  match a with
  | ⟨0, _⟩ => show win0_0.index t (0 : Fin 2) * 1024 + 1 * p.val = t.val / 4 * 1024 + p.val; rw [e0]; omega
  | ⟨1, _⟩ => show win0_0.index t (1 : Fin 2) * 1024 + 1 * q.val = t.val % 4 * 1024 + q.val; rw [e1]; omega

/-- The first factor's band at point `t`, entry (p, r), is the factor's entry (row, r). -/
theorem blk1 (c : Dev nD) (t : Fin cfg0.N) (p : Fin 1024) (r : Fin 16) :
    (iblk0 (F := Ideal) V c 1 t : Vec Ideal S1024x16 .f32) (ix2 p r)
      = (V c main_arg3 : S4096x16.Idx → EReal) (ix2 (row t p) r) := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t (0 : Fin 2) * 1024 + 1 * p.val = t.val / 4 * 1024 + p.val; rw [e0]; omega
  | ⟨1, _⟩ => show win0_1.index t (1 : Fin 2) * 16 + 1 * r.val = r.val; rw [e1]; omega

/-- The second factor's band at point `t`, entry (r, q), is the factor's entry (r, col). -/
theorem blk2 (c : Dev nD) (t : Fin cfg0.N) (r : Fin 16) (q : Fin 1024) :
    (iblk0 (F := Ideal) V c 2 t : Vec Ideal S16x1024 .f32) (ix2 r q)
      = (V c main_arg4 : S16x4096.Idx → EReal) (ix2 r (col t q)) := by
  obtain ⟨-, -, -, -, e0, e1, -⟩ := idx_facts t
  unfold iblk0
  rw [View.read_apply]
  show V c main_arg4 _ = V c main_arg4 _
  congr 1
  funext a
  apply Fin.ext
  match a with
  | ⟨0, _⟩ => show win0_2.index t (0 : Fin 2) * 16 + 1 * r.val = r.val; rw [e0]; omega
  | ⟨1, _⟩ => show win0_2.index t (1 : Fin 2) * 1024 + 1 * q.val = t.val % 4 * 1024 + q.val; rw [e1]; omega

/-- Entry (p, q) of the output tile at point `t` sits in the result array at (row, col). -/
theorem emb3 (t : Fin cfg0.N) (p q : Fin 1024) :
    ((cfg0.win 3).blk t).view.emb (ix2 p q) = (ix2 (row t p) (col t q) : S4096x4096.Idx) := by
  obtain ⟨-, -, -, -, -, -, e0, e1⟩ := idx_facts t
  funext a
  apply Fin.ext
  match a with
  | ⟨0, _⟩ => show win0_3.index t (0 : Fin 2) * 1024 + 1 * p.val = t.val / 4 * 1024 + p.val; rw [e0]; omega
  | ⟨1, _⟩ => show win0_3.index t (1 : Fin 2) * 1024 + 1 * q.val = t.val % 4 * 1024 + q.val; rw [e1]; omega

/-- What point `t` writes back is tile `t` of the effective weight. -/
theorem flushed_eq (c : Dev nD) (t : Fin cfg0.N) :
    (dat0 (F := Ideal) V c).flushed 3 t
      = ((cfg0.win 3).blk t).view.read (Elt Ideal) (G (V c main_arg1) (V c main_arg3) (V c main_arg4)) := by
  show (cfg0.win 3).cut (grid0.coords t) ((dat0 (F := Ideal) V c).after 3 t) = _
  rw [after0_3]
  unfold out0_3
  rw [View.canon_unit_zero hz]
  simp only [View.ld_unit_zero (S := S1024x1024) hz, View.ld_unit_zero (S := S1024x16) hz, View.ld_unit_zero (S := S16x1024) hz]
  funext j
  obtain ⟨p, q, rfl⟩ : ∃ (p q : Fin 1024), j = ix2 p q := ⟨j 0, j 1, eq_ix2 j⟩
  show k0_pay1 (F := Ideal) (iblk0 V c 1 t) (iblk0 V c 2 t) (iblk0 V c 0 t) (ix2 p q)
    = G (V c main_arg1) (V c main_arg3) (V c main_arg4) (((cfg0.win 3).blk t).view.emb (ix2 p q))
  rw [emb3]
  refine (pay_apply _ _ _ p q).trans ?_
  rw [blk0]
  show _ = Cert.Spec.weff _ _ _ (row t p) (col t q)
  unfold Cert.Spec.weff Cert.Spec.lora
  congr 1
  exact Finset.sum_congr rfl fun r _ => by rw [blk1, blk2]

/-- An index of the result array is in point `t`'s tile iff each coordinate is in the tile's range on its axis. -/
theorem mem_blk (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- The tiles cover the array: entry (o, i) lies in the tile of point (o / 1024) * 4 + i / 1024, and every point
    writes its tile back. -/
theorem cover (i : S4096x4096.Idx) :
    ∃ t : Fin cfg0.N, (cfg0.win 3).flush t = true ∧ i ∈ ((cfg0.win 3).blk t).view.set := by
  have h0 : (i 0).val < 4096 := (i 0).isLt
  have h1 : (i 1).val < 4096 := (i 1).isLt
  obtain ⟨t, ht⟩ : ∃ t : Fin cfg0.N, t.val = (i 0).val / 1024 * 4 + (i 1).val / 1024 :=
    ⟨⟨(i 0).val / 1024 * 4 + (i 1).val / 1024, Nat.lt_of_lt_of_eq (by omega) N_0.symm⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 1024 ≤ (i 1).val ∧ (i 1).val < win0_3.index t (1 : Fin 2) * 1024 + 1024
    rw [e1, ht]; omega

/-- After the first region its output array holds the effective weight of the arrays the region found. -/
theorem weff_final (c : Dev nD) (o i : Fin 4096) :
    (dat0 (F := Ideal) V c).arrAt 3 cfg0.N (ix2 o i) = Cert.Spec.weff (V c main_arg1) (V c main_arg3) (V c main_arg4) o i := by
  have h := (dat0 (F := Ideal) V c).arrAt_eq_of_cover 3 (G (V c main_arg1) (V c main_arg3) (V c main_arg4))
    (fun t _ => flushed_eq V c t) cover
  exact congrFun h (ix2 o i)

end Cert.KernelIdeal.KVal0

end
-- ==== Proof.KPay1.lean ====
/-
  The second kernel's arithmetic, entry by entry.

  Three values are stored by the body. The reset value is the zero splat. The accumulated value is the accumulator plus
  the product of the two operand blocks contracted over their second axes: at (p, q) the sum over k of the first block's
  (p, k) times the second block's (q, k). The output value is the accumulator plus the bias row broadcast down the rows:
  at (p, q) the accumulator's entry plus the row's entry q. Shape casts between equal shapes and changes of float format
  are the identity on the extended reals.
-/
import proofs.«177365_j21225728377224_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KPay1

open Idealize.ShloMosaic Idealize.ShloMosaic.ValueIdx
open Cert.KernelIdeal Cert.KernelIdeal.Gen

/-! ### The operand indices of the contraction: both operands are contracted over their second axis -/

/-- The first operand's row is the output's row. -/
theorem lhs_k1_0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
/-- The first operand's column is the contraction index. -/
theorem lhs_k1_1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
/-- The second operand's row is the output's column. -/
theorem rhs_k1_0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
/-- The second operand's column is the contraction index. -/
theorem rhs_k1_1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The contraction into the zero splat, at (p, q): the sum over k of the first operand's (p, k) times the second
    operand's (q, k). -/
theorem matmul_k1_apply (a b : FVec Ideal S1024x2048 .bf16) (p q : Fin 1024) :
    matmul (F := Ideal) dot_S1024x2048_S1024x2048_S1024x1024_1_1_0_0_n_n none a b (constant (F := Ideal) S1024x1024 .f32 0x00000000#32) (ix2 p q)
      = ∑ k : Fin 2048, a (ix2 p k) * b (ix2 q k) := by
  simp only [matmul]
  rw [Ideal.matmul_constant_zero_apply, ← Equiv.sum_comp (ValueIdx.contrEquiv1 dot_S1024x2048_S1024x2048_S1024x1024_1_1_0_0_n_n 2048 rfl rfl).symm]
  refine Finset.sum_congr rfl fun k _ => ?_
  have hk := ValueIdx.contrEquiv1_symm_val dot_S1024x2048_S1024x2048_S1024x1024_1_1_0_0_n_n 2048 rfl rfl k
  have el : dot_S1024x2048_S1024x2048_S1024x1024_1_1_0_0_n_n.lhsIdx (ix2 p q) ((ValueIdx.contrEquiv1 dot_S1024x2048_S1024x2048_S1024x1024_1_1_0_0_n_n 2048 rfl rfl).symm k) = ix2 p k := funext fun a => Fin.ext (by
    match a with
    | ⟨0, _⟩ => exact lhs_k1_0 _ _
    | ⟨1, _⟩ => exact (lhs_k1_1 _ _).trans hk)
  have er : dot_S1024x2048_S1024x2048_S1024x1024_1_1_0_0_n_n.rhsIdx (ix2 p q) ((ValueIdx.contrEquiv1 dot_S1024x2048_S1024x2048_S1024x1024_1_1_0_0_n_n 2048 rfl rfl).symm k) = ix2 q k := funext fun a => Fin.ext (by
    match a with
    | ⟨0, _⟩ => exact rhs_k1_0 _ _
    | ⟨1, _⟩ => exact (rhs_k1_1 _ _).trans hk)
  rw [el, er]

/-- A row broadcast down the rows reads the row's entry of the column. -/
theorem broadcastRow_apply (x : FVec Ideal S1x1024 .f32) (h : S1x1024.Broadcasts S1024x1024) (p q : Fin 1024) :
    broadcastTo S1024x1024 x h (ix2 p q) = x (ix2 (0 : Fin 1) q) :=
  broadcastTo_apply x h (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-- The reset value is zero everywhere. -/
theorem pay1_apply (p q : Fin 1024) : k1_pay1 (F := Ideal) (ix2 p q) = (0 : EReal) := by
  unfold k1_pay1
  rw [shapeCast_self, broadcast_apply]
  exact Ideal.ofBits_zero_f32

/-- The accumulated value: the accumulator plus the two blocks contracted over their second axes. -/
theorem pay2_apply (v3 : Vec Ideal S1024x1024 .f32) (v4 : Vec Ideal S1024x2048 .bf16) (v6 : Vec Ideal S1024x2048 .bf16) (p q : Fin 1024) :
    k1_pay2 (F := Ideal) v3 v4 v6 (ix2 p q) = v3 (ix2 p q) + ∑ k : Fin 2048, v4 (ix2 p k) * v6 (ix2 q k) := by
  unfold k1_pay2
  rw [shapeCast_self, shapeCast_self, shapeCast_self, addf_apply, matmul_k1_apply]

/-- The output value: the accumulator plus the bias row's entry of the column. -/
theorem pay3_apply (v16 : Vec Ideal S1024x1024 .f32) (v17 : Vec Ideal S1x1024 .f32) (p q : Fin 1024) :
    k1_pay3 (F := Ideal) v16 v17 (ix2 p q) = v16 (ix2 p q) + v17 (ix2 (0 : Fin 1) q) := by
  unfold k1_pay3
  rw [shapeCast_self, addf_apply, broadcastRow_apply]

end Cert.KernelIdeal.KPay1

end
-- ==== Proof.KVal1.lean ====
/-
  The second region's result: the activations times the effective weight, plus the bias.

  The grid is 8 × 4 × 2. Points 2n and 2n + 1 work on the same output tile, rows [1024 a, 1024 (a + 1)) and columns
  [1024 b, 1024 (b + 1)) with n = 4 a + b: the even point leaves in the accumulator zero plus the product over the first
  half [0, 2048) of the contracted axis, the odd point adds the product over the second half [2048, 4096) and writes the
  sum plus the bias entry of the column back as the tile. Only odd points write back, and their tiles partition the
  8192 × 4096 result. Both operand blocks are contracted over their second axis: entry (r, o) pairs row r of the
  activations with row o of the weight.
-/
import proofs.«177365_j21225728377224_1_alg».proof.Proof.KernelIdeal.R1
import proofs.«177365_j21225728377224_1_alg».proof.Proof.Spec
import proofs.«177365_j21225728377224_1_alg».proof.Proof.KPay1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KVal1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm

variable (V : (c : Dev nD) → (b : Ref sig .tc) → Buf (Elt Ideal) ((c : Thread nD τ).loc b))

/-- Zero, plus the first half of the contraction of `x`'s row `r` with `w`'s row `o`, plus the second half, plus the bias
    row's entry `o`. -/
def linVal (x : (⟨2, ![8192, 4096]⟩ : Shape).Idx → EReal) (w : (⟨2, ![4096, 4096]⟩ : Shape).Idx → EReal)
    (b : (⟨2, ![1, 4096]⟩ : Shape).Idx → EReal) (r : Fin 8192) (o : Fin 4096) : EReal :=
  ((0 + ∑ k : Fin 2048, x (ix2 r (Cert.Spec.lo k)) * w (ix2 o (Cert.Spec.lo k)))
    + ∑ k : Fin 2048, x (ix2 r (Cert.Spec.hi k)) * w (ix2 o (Cert.Spec.hi k))) + b (ix2 (0 : Fin 1) o)

/-- The zero offsets of a whole-block access, as a constant function. -/
theorem hz : (![0, 0] : Fin 2 → Nat) = fun _ => 0 :=
  funext fun a => match a with | ⟨0, _⟩ => rfl | ⟨1, _⟩ => rfl

/-- An even point leaves in the accumulator the zero fill with the product of its two blocks added. -/
theorem sout_A (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond1_0 i) (hc1 : ¬cond1_1 i)
    (x0 : Vec Ideal S1024x2048 .bf16) (x1 : Vec Ideal S1024x2048 .bf16) (x2 : Vec Ideal S1x1024 .f32) :
    sout1_A_0 (F := Ideal) c i a3 h3 a4 h4 a5 h5 a6 h6 a7 h7 hc0 hc1 x0 x1 x2 = k1_pay2 (F := Ideal) (k1_pay1 (F := Ideal)) x0 x1 := by
  unfold sout1_A_0
  rw [View.read_writes_eq_canon _ _ _ (scover1_A_0 c i a3 h3 a4 h4 a5 h5 a6 h6 a7 h7 hc0 hc1 x0 x1 x2)]
  unfold kernelRun1_A
  dsimp only
  sl_unfold_words
  rw [View.canon_cons_unit_zero (S := S1024x1024) hz]
  simp only [View.readAt_eq_ld, h3.read_unread, h4.read_unread, View.ld_unit_zero (S := S1024x2048) hz,
    View.readCov_unit_zero (S := S1024x1024) _ hz]

/-- An odd point leaves in the accumulator what it found there with the product of its two blocks added. -/
theorem sout_B (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec Ideal S1024x2048 .bf16) (x1 : Vec Ideal S1024x2048 .bf16) (x2 : Vec Ideal S1x1024 .f32) (xs0 : Vec Ideal S1024x1024 .f32) :
    sout1_B_0 (F := Ideal) c i a3 h3 a4 h4 a5 h5 a6 h6 a7 h7 hc0 hc1 x0 x1 x2 xs0 = k1_pay2 (F := Ideal) xs0 x0 x1 := by
  unfold sout1_B_0
  rw [View.read_writes_eq_canon _ _ _ (scover1_B_0 c i a3 h3 a4 h4 a5 h5 a6 h6 a7 h7 hc0 hc1 x0 x1 x2 xs0)]
  unfold kernelRun1_B
  dsimp only
  sl_unfold_words
  rw [View.canon_unit_zero hz]
  simp only [View.readAt_eq_ld, h3.read_unread, h4.read_unread, h7.read_unread, View.ld_unit_zero (S := S1024x2048) hz,
    View.ld_unit_zero (S := S1024x1024) hz]

/-- An odd point leaves in the output buffer that sum plus the bias row, broadcast down the rows. -/
theorem out_B (c : Dev nD) (i : grid1.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec Ideal S1024x2048 .bf16) (x1 : Vec Ideal S1024x2048 .bf16) (x2 : Vec Ideal S1x1024 .f32) (xs0 : Vec Ideal S1024x1024 .f32) :
    out1_B_3 (F := Ideal) c i a3 h3 a4 h4 a5 h5 a6 h6 a7 h7 hc0 hc1 x0 x1 x2 xs0 = k1_pay3 (F := Ideal) (k1_pay2 (F := Ideal) xs0 x0 x1) x2 := by
  unfold out1_B_3
  rw [View.read_writes_eq_canon _ _ _ (cover1_B_3 c i a3 h3 a4 h4 a5 h5 a6 h6 a7 h7 hc0 hc1 x0 x1 x2 xs0)]
  unfold kernelRun1_B
  dsimp only
  sl_unfold_words
  rw [View.canon_unit_zero hz]
  simp only [View.readAt_eq_ld, h3.read_unread, h4.read_unread, h5.read_unread, h7.read_unread,
    View.ld_unit_zero (S := S1024x2048) hz, View.ld_unit_zero (S := S1024x1024) hz, View.ld_unit_zero (S := S1x1024) hz,
    View.readCov_unit_zero (S := S1024x1024) _ hz]

/-! ## The blocks and the arrays, by their literal types -/

/-- The activations, the weight and the bias row as the region finds them. -/
abbrev xarr (c : Dev nD) : Vec Ideal S8192x4096 .bf16 := V c main_v1
abbrev warr (c : Dev nD) : Vec Ideal S4096x4096 .bf16 := V c main_v3
abbrev barr (c : Dev nD) : Vec Ideal S1x4096 .f32 := V c main_v2

/-- Their blocks at point `t`. -/
abbrev xblk (c : Dev nD) (t : Fin cfg1.N) : Vec Ideal S1024x2048 .bf16 := iblk1 (F := Ideal) V c 0 t
abbrev wblk (c : Dev nD) (t : Fin cfg1.N) : Vec Ideal S1024x2048 .bf16 := iblk1 (F := Ideal) V c 1 t
abbrev bblk (c : Dev nD) (t : Fin cfg1.N) : Vec Ideal S1x1024 .f32 := iblk1 (F := Ideal) V c 2 t

/-- The printed index maps, decided over the grid: point `t` has coordinates (t / 8, (t / 2) % 4, t % 2); the
    activations' block is (t / 8, t % 2), the weight's ((t / 2) % 4, t % 2), the bias row's (0, (t / 2) % 4) and the
    output's (t / 8, (t / 2) % 4). -/
theorem idx_facts : ∀ t : Fin cfg1.N,
    win1_0.index t (0 : Fin 2) = t.val / 8 ∧ win1_0.index t (1 : Fin 2) = t.val % 2
    ∧ win1_1.index t (0 : Fin 2) = t.val / 2 % 4 ∧ win1_1.index t (1 : Fin 2) = t.val % 2
    ∧ win1_2.index t (0 : Fin 2) = 0 ∧ win1_2.index t (1 : Fin 2) = t.val / 2 % 4
    ∧ win1_3.index t (0 : Fin 2) = t.val / 8 ∧ win1_3.index t (1 : Fin 2) = t.val / 2 % 4 :=
  (by decide +kernel : ∀ t : Fin grid1.N, _)

/-- A grid point is one of 64. -/
theorem t_lt (t : Fin cfg1.N) : t.val < 64 := Nat.lt_of_lt_of_eq t.isLt N_1

/-- Row `p` of a block in block row `t / 8`, column `q` of a block in block column `(t / 2) % 4`, and contracted
    index `k` of a block in half `t % 2`, as coordinates of the whole arrays. -/
def row (t : Fin cfg1.N) (p : Fin 1024) : Fin 8192 := ⟨t.val / 8 * 1024 + p.val, by have := t_lt t; omega⟩
def col (t : Fin cfg1.N) (q : Fin 1024) : Fin 4096 := ⟨t.val / 2 % 4 * 1024 + q.val, by omega⟩
def ctr (t : Fin cfg1.N) (k : Fin 2048) : Fin 4096 := ⟨t.val % 2 * 2048 + k.val, by omega⟩

/-- The activations' block at point `t`, entry (p, k), is the activations' entry (row, contracted index). -/
theorem xblk_apply (c : Dev nD) (t : Fin cfg1.N) (p : Fin 1024) (k : Fin 2048) :
    xblk V c t (ix2 p k) = xarr V c (ix2 (row t p) (ctr t k)) := by
  obtain ⟨e0, e1, -⟩ := idx_facts t
  unfold xblk iblk1
  rw [View.read_apply]
  show V c main_v1 _ = V c main_v1 _
  congr 1
  funext a
  apply Fin.ext
  match a with
  | ⟨0, _⟩ => show win1_0.index t (0 : Fin 2) * 1024 + 1 * p.val = t.val / 8 * 1024 + p.val; rw [e0]; omega
  | ⟨1, _⟩ => show win1_0.index t (1 : Fin 2) * 2048 + 1 * k.val = t.val % 2 * 2048 + k.val; rw [e1]; omega

/-- The weight's block at point `t`, entry (q, k), is the weight's entry (column, contracted index). -/
theorem wblk_apply (c : Dev nD) (t : Fin cfg1.N) (q : Fin 1024) (k : Fin 2048) :
    wblk V c t (ix2 q k) = warr V c (ix2 (col t q) (ctr t k)) := by
  obtain ⟨-, -, e0, e1, -⟩ := idx_facts t
  unfold wblk iblk1
  rw [View.read_apply]
  show V c main_v3 _ = V c main_v3 _
  congr 1
  funext a
  apply Fin.ext
  match a with
  | ⟨0, _⟩ => show win1_1.index t (0 : Fin 2) * 1024 + 1 * q.val = t.val / 2 % 4 * 1024 + q.val; rw [e0]; omega
  | ⟨1, _⟩ => show win1_1.index t (1 : Fin 2) * 2048 + 1 * k.val = t.val % 2 * 2048 + k.val; rw [e1]; omega

/-- The bias row's block at point `t`, entry (0, q), is the bias row's entry (0, column). -/
theorem bblk_apply (c : Dev nD) (t : Fin cfg1.N) (q : Fin 1024) :
    bblk V c t (ix2 (0 : Fin 1) q) = barr V c (ix2 (0 : Fin 1) (col t q)) := by
  obtain ⟨-, -, -, -, e0, e1, -⟩ := idx_facts t
  unfold bblk iblk1
  rw [View.read_apply]
  show V c main_v2 _ = V c main_v2 _
  congr 1
  funext a
  apply Fin.ext
  match a with
  | ⟨0, _⟩ => show win1_2.index t (0 : Fin 2) * 1 + 1 * 0 = 0; rw [e0]
  | ⟨1, _⟩ => show win1_2.index t (1 : Fin 2) * 1024 + 1 * q.val = t.val / 2 % 4 * 1024 + q.val; rw [e1]; omega

/-- Entry (p, q) of the output block at point `t` sits in the result array at (row, column). -/
theorem emb3 (t : Fin cfg1.N) (p q : Fin 1024) :
    ((cfg1.win 3).blk t).view.emb (ix2 p q) = (ix2 (row t p) (col t q) : S8192x4096.Idx) := by
  obtain ⟨-, -, -, -, -, -, e0, e1⟩ := idx_facts t
  funext a
  apply Fin.ext
  match a with
  | ⟨0, _⟩ => show win1_3.index t (0 : Fin 2) * 1024 + 1 * p.val = t.val / 8 * 1024 + p.val; rw [e0]; omega
  | ⟨1, _⟩ => show win1_3.index t (1 : Fin 2) * 1024 + 1 * q.val = t.val / 2 % 4 * 1024 + q.val; rw [e1]; omega

/-! ## What the accumulator and the output buffer hold, by the parity of the point -/

/-- After an even point the accumulator's entry (p, q) is zero plus the product of the point's blocks at (p, q). -/
theorem acc_even (c : Dev nD) (t : Fin cfg1.N) (h0 : t.val % 2 = 0) (h1 : ¬t.val % 2 = 1) (p q : Fin 1024) :
    (outsAt1 (F := Ideal) V c t.val t.isLt).2 (ix2 p q)
      = (0 : EReal) + ∑ k : Fin 2048, xblk V c t (ix2 p k) * wblk V c t (ix2 q k) := by
  rw [outsAt1_A V c t h0 h1]
  dsimp only
  refine (congrFun (sout_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (xblk V c t) (wblk V c t) (bblk V c t)) (ix2 p q)).trans ?_
  rw [KPay1.pay2_apply, KPay1.pay1_apply]

/-- After an odd point the output buffer's entry (p, q) is the result's entry at the block's row and column: the
    even point before it has the same block row and column and the first half of the contracted axis, this point the
    second half. -/
theorem out_odd (c : Dev nD) (t : Fin cfg1.N) (h0 : ¬t.val % 2 = 0) (h1 : t.val % 2 = 1) (p q : Fin 1024) :
    (outsAt1 (F := Ideal) V c t.val t.isLt).1 (ix2 p q)
      = linVal (xarr V c) (warr V c) (barr V c) (row t p) (col t q) := by
  have hlt : t.val - 1 < cfg1.N := Nat.lt_of_le_of_lt (Nat.sub_le _ _) t.isLt
  rw [outsAt1_B V c t h0 h1]
  dsimp only
  refine (congrFun (out_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (xblk V c t) (wblk V c t) (bblk V c t) (outsAt1 (F := Ideal) V c (t.val - 1) hlt).2) (ix2 p q)).trans ?_
  rw [KPay1.pay3_apply, KPay1.pay2_apply]
  have he := acc_even V c ⟨t.val - 1, hlt⟩ (by show (t.val - 1) % 2 = 0; omega) (by show ¬(t.val - 1) % 2 = 1; omega) p q
  rw [show (outsAt1 (F := Ideal) V c (t.val - 1) hlt).2 (ix2 p q) = _ from he]
  simp only [xblk_apply, wblk_apply, bblk_apply]
  have r1 : row ⟨t.val - 1, hlt⟩ p = row t p :=
    Fin.ext (by show (t.val - 1) / 8 * 1024 + p.val = t.val / 8 * 1024 + p.val; omega)
  have c1 : col ⟨t.val - 1, hlt⟩ q = col t q :=
    Fin.ext (by show (t.val - 1) / 2 % 4 * 1024 + q.val = t.val / 2 % 4 * 1024 + q.val; omega)
  have k0 : ∀ k : Fin 2048, ctr ⟨t.val - 1, hlt⟩ k = Cert.Spec.lo k := fun k =>
    Fin.ext (by show (t.val - 1) % 2 * 2048 + k.val = k.val; omega)
  have k1 : ∀ k : Fin 2048, ctr t k = Cert.Spec.hi k := fun k =>
    Fin.ext (by show t.val % 2 * 2048 + k.val = 2048 + k.val; omega)
  simp only [r1, c1, k0, k1]
  rfl

/-! ## From the blocks to the array -/

/-- The whole result array: entry (r, o) is `linVal` at row `r` and column `o`. -/
abbrev G (x : S8192x4096.Idx → EReal) (w : S4096x4096.Idx → EReal) (b : S1x4096.Idx → EReal) :
    S8192x4096.Idx → Elt Ideal .f32 := fun j => linVal x w b (j 0) (j 1)

/-- What an odd point writes back is its block of the result. -/
theorem flushed_eq (c : Dev nD) (t : Fin cfg1.N) (hf : (cfg1.win 3).flush t = true) :
    (dat1 (F := Ideal) V c).flushed 3 t
      = ((cfg1.win 3).blk t).view.read (Elt Ideal) (G (V c main_v1) (V c main_v3) (V c main_v2)) := by
  have h1 : t.val % 2 = 1 := (flush1_3 t).mp hf
  have h0 : ¬t.val % 2 = 0 := by omega
  show (cfg1.win 3).cut (grid1.coords t) ((dat1 (F := Ideal) V c).after 3 t) = _
  rw [after1_3]
  funext j
  obtain ⟨p, q, rfl⟩ : ∃ (p q : Fin 1024), j = ix2 p q := ⟨j 0, j 1, eq_ix2 j⟩
  rw [View.read_apply, emb3]
  exact out_odd V c t h0 h1 p q

/-- An index of the result array is in point `t`'s output block iff each coordinate is in the block's range. -/
theorem mem_blk (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v4).slice (win1_3.rect t)).set ↔ _
  rw [View.set_slice_whole, Rect.mem_set_unit]
  exact Iff.rfl

/-- Every entry (r, o) of the result lies in the output block of an odd point: the one with block row r / 1024 and
    block column o / 1024. -/
theorem cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 64 := N_1
  let t : Fin cfg1.N := ⟨2 * (4 * ((i 0).val / 1024) + (i 1).val / 1024) + 1, by rw [hN]; omega⟩
  have ht : t.val = 2 * (4 * ((i 0).val / 1024) + (i 1).val / 1024) + 1 := rfl
  obtain ⟨-, -, -, -, -, -, e0, e1⟩ := idx_facts t
  refine ⟨t, (flush1_3 t).mpr (by omega), ?_⟩
  rw [mem_blk]
  intro a
  match a with
  | ⟨0, _⟩ => show win1_3.index t (0 : Fin 2) * 1024 ≤ (i 0).val ∧ (i 0).val < win1_3.index t (0 : Fin 2) * 1024 + 1024; rw [e0]; omega
  | ⟨1, _⟩ => show win1_3.index t (1 : Fin 2) * 1024 ≤ (i 1).val ∧ (i 1).val < win1_3.index t (1 : Fin 2) * 1024 + 1024; rw [e1]; omega

/-- After the second region its output array holds, at row `r` and column `o`, `linVal` of the activations, the weight
    and the bias row the region found. -/
theorem lin_final (c : Dev nD) (r : Fin 8192) (o : Fin 4096) :
    (dat1 (F := Ideal) V c).arrAt 3 cfg1.N (ix2 r o) = linVal (V c main_v1) (V c main_v3) (V c main_v2) r o := by
  exact congrFun ((dat1 (F := Ideal) V c).arrAt_eq_of_cover 3 (G (V c main_v1) (V c main_v3) (V c main_v2))
    (fun t hf => flushed_eq V c t hf) cover) (ix2 r o)

end Cert.KernelIdeal.KVal1

end
-- ==== Proof.KVal.lean ====
/-
  The kernel program's result, entry by entry.

  The result is the second region's output with its 8192 rows given back as 4 × 2048: entry (p, s, o) is the region's
  entry (2048 p + s, o). The second region found the activations flattened the same way (narrowing is the identity on
  the extended reals), the first region's output as its weight, and the bias laid out as one row; the first region found
  the base weight and the two low-rank factors as launched. Putting the two regions' values together gives
  `Cert.Spec.kerVal` of the five arguments.
-/
import proofs.«177365_j21225728377224_1_alg».proof.Proof.KernelIdeal.Run
import proofs.«177365_j21225728377224_1_alg».proof.Proof.KVal0
import proofs.«177365_j21225728377224_1_alg».proof.Proof.KVal1
import proofs.«177365_j21225728377224_1_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.KVal

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Frm

variable (m : (ℓ : Loc nD τ sig) → Buf (Elt Ideal) ℓ)

/-! ## The host stretches, read at an index -/

/-- The flattened, narrowed activations: row `2048 p + s` is the activations' row `(p, s)`. -/
theorem x2_apply (c : Dev nD) (p : Fin 4) (s : Fin 2048) (r : Fin 8192) (hr : r.val = p.val * 2048 + s.val) (k : Fin 4096) :
    W1 (F := Ideal) m c (Proc.devRef .tc main_v1) (ix2 r k) = m ((c : Thread nD τ).loc main_arg0) (ix3 p s k) := by
  show StableHlo.after hostOps0 (fun b => m (c, b)) (Proc.devRef .tc main_v1) (ix2 r k) = _
  after_results
  show shapeCast S8192x4096 (m ((c : Thread nD τ).loc main_arg0)) shapeCasts_S4x2048x4096_S8192x4096 (ix2 r k) = _
  refine shapeCast_apply _ _ _ (ix3 p s k) ?_
  rw [Shape.rowMajor_val_three, Shape.rowMajor_val_two]
  show (p.val * 2048 + s.val) * 4096 + k.val = r.val * 4096 + k.val
  rw [hr]

/-- The bias as a row. -/
theorem b2_apply (c : Dev nD) (o : Fin 4096) :
    W1 (F := Ideal) m c (Proc.devRef .tc main_v2) (ix2 (0 : Fin 1) o) = m ((c : Thread nD τ).loc main_arg2) (ix1 o) := by
  show StableHlo.after hostOps0 (fun b => m (c, b)) (Proc.devRef .tc main_v2) (ix2 (0 : Fin 1) o) = _
  after_results
  show shapeCast S1x4096 (m ((c : Thread nD τ).loc main_arg2)) shapeCasts_S4096_S1x4096 (ix2 (0 : Fin 1) o) = _
  refine shapeCast_apply _ _ _ (ix1 o) ?_
  rw [Shape.rowMajor_val_one, Shape.rowMajor_val_two]
  show o.val = 0 * 4096 + o.val
  omega

/-- The result: the second region's output with its rows given back their two axes. -/
theorem v5_apply (c : Dev nD) (p : Fin 4) (s : Fin 2048) (o : Fin 4096) (r : Fin 8192) (hr : r.val = p.val * 2048 + s.val) :
    W4 (F := Ideal) m c (Proc.devRef .tc main_v5) (ix3 p s o) = W3 (F := Ideal) m c (Proc.devRef .tc main_v4) (ix2 r o) := by
  show StableHlo.after hostOps2 (W3 (F := Ideal) m c) (Proc.devRef .tc main_v5) (ix3 p s o) = _
  after_results
  show shapeCast S4x2048x4096 (W3 (F := Ideal) m c (Proc.devRef .tc main_v4)) shapeCasts_S8192x4096_S4x2048x4096 (ix3 p s o) = _
  refine shapeCast_apply _ _ _ (ix2 r o) ?_
  rw [Shape.rowMajor_val_three, Shape.rowMajor_val_two]
  show r.val * 4096 + o.val = (p.val * 2048 + s.val) * 4096 + o.val
  rw [hr]

/-! ## What each region found -/

/-- The second region found the flattened activations. -/
theorem E1_v1 (c : Dev nD) : E1 (F := Ideal) m c main_v1 = W1 (F := Ideal) m c (Proc.devRef .tc main_v1) :=
  W2_of_ne m c main_v1 (by decide)
/-- The second region found the bias row. -/
theorem E1_v2 (c : Dev nD) : E1 (F := Ideal) m c main_v2 = W1 (F := Ideal) m c (Proc.devRef .tc main_v2) :=
  W2_of_ne m c main_v2 (by decide)
/-- The second region found the first region's output. -/
theorem E1_v3 (c : Dev nD) : E1 (F := Ideal) m c main_v3 = (dat0 (F := Ideal) (E0 m) c).arrAt 3 cfg0.N :=
  W2_arr m c 3
/-- The first region found the arguments as launched. -/
theorem E0_arg1 (c : Dev nD) : E0 (F := Ideal) m c main_arg1 = m ((c : Thread nD τ).loc main_arg1) := W1_keep m c main_arg1 (by decide)
theorem E0_arg3 (c : Dev nD) : E0 (F := Ideal) m c main_arg3 = m ((c : Thread nD τ).loc main_arg3) := W1_keep m c main_arg3 (by decide)
theorem E0_arg4 (c : Dev nD) : E0 (F := Ideal) m c main_arg4 = m ((c : Thread nD τ).loc main_arg4) := W1_keep m c main_arg4 (by decide)

/-! ## The result -/

/-- The kernel program's result at `(p, s, o)` is `Cert.Spec.kerVal` of the five arguments. -/
theorem result_apply (c : Dev nD) (p : Fin 4) (s : Fin 2048) (o : Fin 4096) :
    W4 (F := Ideal) m c (Proc.devRef .tc main_v5) (ix3 p s o)
      = Cert.Spec.kerVal (m ((c : Thread nD τ).loc main_arg0)) (m ((c : Thread nD τ).loc main_arg1)) (m ((c : Thread nD τ).loc main_arg2))
          (m ((c : Thread nD τ).loc main_arg3)) (m ((c : Thread nD τ).loc main_arg4)) p s o := by
  obtain ⟨r, hr⟩ : ∃ r : Fin 8192, r.val = p.val * 2048 + s.val := ⟨⟨p.val * 2048 + s.val, by omega⟩, rfl⟩
  have hx : ∀ k : Fin 4096, E1 (F := Ideal) m c main_v1 (ix2 r k) = m ((c : Thread nD τ).loc main_arg0) (ix3 p s k) := fun k => by
    rw [E1_v1]; exact x2_apply m c p s r hr k
  have hw : ∀ k : Fin 4096, E1 (F := Ideal) m c main_v3 (ix2 o k)
      = Cert.Spec.weff (m ((c : Thread nD τ).loc main_arg1)) (m ((c : Thread nD τ).loc main_arg3)) (m ((c : Thread nD τ).loc main_arg4)) o k := fun k => by
    rw [E1_v3, Cert.KernelIdeal.KVal0.weff_final (E0 m) c o k, E0_arg1, E0_arg3, E0_arg4]
  have hb : E1 (F := Ideal) m c main_v2 (ix2 (0 : Fin 1) o) = m ((c : Thread nD τ).loc main_arg2) (ix1 o) := by
    rw [E1_v2]; exact b2_apply m c o
  rw [v5_apply m c p s o r hr, show W3 (F := Ideal) m c (Proc.devRef .tc main_v4) = (dat1 (F := Ideal) (E1 m) c).arrAt 3 cfg1.N from W3_arr m c 3,
    Cert.KernelIdeal.KVal1.lin_final (E1 m) c r o]
  unfold Cert.KernelIdeal.KVal1.linVal Cert.Spec.kerVal
  refine congrArg₂ (· + ·) (congrArg₂ (· + ·) (congrArg (0 + ·) (Finset.sum_congr rfl fun k _ => ?_)) (Finset.sum_congr rfl fun k _ => ?_)) hb
  · exact congrArg₂ (· * ·) (hx _) (hw _)
  · exact congrArg₂ (· * ·) (hx _) (hw _)

end Cert.KernelIdeal.KVal

end
-- ==== Proof.RefVal.lean ====
/-
  The reference's result, entry by entry.

  The reference contracts the activations with the base weight, adds the bias broadcast over batch and position,
  and adds the contraction of the activations with the product of the two low-rank factors. Read at batch `p`,
  position `s` and output feature `o` this is `(∑ i, x[p, s, i] · W[o, i] + b[o]) + ∑ i, x[p, s, i] · (∑ r, A[o, r] · B[r, i])`.
-/
import proofs.«177365_j21225728377224_1_alg».proof.Defs
import proofs.«177365_j21225728377224_1_alg».proof.Proof.Gen.ReferenceIdeal.Run
import proofs.«177365_j21225728377224_1_alg».proof.Proof.Gen.ReferenceIdeal.Read
import proofs.«177365_j21225728377224_1_alg».proof.Proof.Spec

noncomputable section

open scoped BigOperators

namespace Cert.ReferenceIdeal.RefValue

open Idealize.ShloMosaic Idealize.ShloMosaic.ValueIdx Cert.ReferenceIdeal Cert.ReferenceIdeal.Gen Cert.ReferenceIdeal.Read

/-- The reference's last stage at `(p, s, o)` is `Cert.Spec.refVal`. -/
theorem ref_apply (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x16, .f32⟩ : BufTy).Contents (Elt Ideal))
    (x4 : (⟨S16x4096, .f32⟩ : BufTy).Contents (Elt Ideal)) (p : Fin 4) (s : Fin 2048) (o : Fin 4096) :
    val_main_v6 (F := Ideal) x0 x1 x2 x3 x4 (ix3 p s o) = Cert.Spec.refVal x0 x1 x2 x3 x4 p s o := by
  -- the composed index functions of the stages, at `(p, s, o)`, are the coordinate constructors
  have hl1 : ∀ k : Fin 4096, lidx_main_v1 (ix3 p s o) k = ix3 p s k := fun k =>
    funext fun a => Fin.ext (by match a with | ⟨0, _⟩ => rfl | ⟨1, _⟩ => rfl | ⟨2, _⟩ => rfl)
  have hr1 : ∀ k : Fin 4096, ridx_main_v1 (ix3 p s o) k = ix2 o k := fun k =>
    funext fun a => Fin.ext (by match a with | ⟨0, _⟩ => rfl | ⟨1, _⟩ => rfl)
  have hl5 : ∀ k : Fin 4096, lidx_main_v5 (ix3 p s o) k = ix3 p s k := fun k =>
    funext fun a => Fin.ext (by match a with | ⟨0, _⟩ => rfl | ⟨1, _⟩ => rfl | ⟨2, _⟩ => rfl)
  have hr5 : ∀ k : Fin 4096, ridx_main_v5 (ix3 p s o) k = ix2 o k := fun k =>
    funext fun a => Fin.ext (by match a with | ⟨0, _⟩ => rfl | ⟨1, _⟩ => rfl)
  have hl0 : ∀ (k : Fin 4096) (r : Fin 16), lidx_main_v0 (ix2 o k) r = ix2 o r := fun k r =>
    funext fun a => Fin.ext (by match a with | ⟨0, _⟩ => rfl | ⟨1, _⟩ => rfl)
  have hr0 : ∀ (k : Fin 4096) (r : Fin 16), ridx_main_v0 (ix2 o k) r = ix2 r k := fun k r =>
    funext fun a => Fin.ext (by match a with | ⟨0, _⟩ => rfl | ⟨1, _⟩ => rfl)
  have hb : idx_main_v2 (idx_main_v3 (ix3 p s o)) = ix1 o :=
    funext fun a => Fin.ext (by match a with | ⟨0, _⟩ => rfl)
  -- read each stage at its index: two sums and a broadcast bias on the left, the update's inner sum under the second
  -- sum; with the index equations both sides are the same expression
  rw [val_main_v6_apply, val_main_v4_apply, val_main_v1_apply, val_main_v3_apply, val_main_v2_apply,
    val_main_v5_apply, hb]
  unfold Cert.Spec.refVal Cert.Spec.lora
  simp only [hl1, hr1, hl5, hr5, val_main_v0_apply, hl0, hr0, Ideal.addf_def]

end Cert.ReferenceIdeal.RefValue

end
-- ==== Proof.Finite.lean ====
/-
  Finite inputs are real numbers.

  The precondition says of each of the five float inputs that every entry's absolute value is below +∞. Over the
  extended reals an entry with |e| < +∞ is neither +∞ nor −∞, so it is the image of a real number: each input array
  is the coercion of a real array.
-/
import proofs.«177365_j21225728377224_1_alg».proof.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- An extended real whose absolute value max e (−e) is strictly below +∞ is a real number: +∞ and −∞ both have
    absolute value +∞. -/
theorem real_of_abs_lt (e : EReal)
    (h : FloatOps.cmpf (F := Ideal) (φ := .f32) .olt (FloatOps.hostAbsf (F := Ideal) (φ := .f32) e)
      (FloatOps.ofBits (F := Ideal) .f32 0x7F800000#32) = 1#1) : ∃ r : ℝ, e = ((r : ℝ) : EReal) := by
  have hinf : FloatOps.ofBits (F := Ideal) .f32 0x7F800000#32 = (⊤ : EReal) := by
    show Ideal.ofBits .f32 0x7F800000#32 = ⊤
    simp [Ideal.ofBits, Ideal.ieee]
  rw [hinf] at h
  change BitVec.ofBool (decide (max e (-e) < (⊤ : EReal))) = 1#1 at h
  induction e using EReal.rec with
  | bot => simp at h
  | coe r => exact ⟨r, rfl⟩
  | top => simp at h

/-- An array every entry of which passes the element test |x| < +∞, the test reduced by ∧ over all axes to the one
    word 1, is the coercion of a real array. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (h : Host.reduce IntOp.andi
        (cmpf .olt (Host.absf x) (broadcastInDim s ![] hb (constant (F := Ideal) S_ .f32 0x7F800000#32))) init hr hu ix0
        = 1#1) :
    ∃ r : s.Idx → ℝ, x = fun i => ((r i : ℝ) : EReal) := by
  have hall : ∀ i : s.Idx, ∃ r : ℝ, x i = ((r : ℝ) : EReal) := fun i =>
    real_of_abs_lt (x i) (Host.reduce_andi_all _ init hr hu ix0 h i)
  choose r hr' using hall
  exact ⟨r, funext hr'⟩

/-- Under the precondition every input array is the coercion of a real array. -/
theorem real_of_pre [Cert.Pre_finite_inputs.Facts]
    (x0 : FVec Ideal S4x2048x4096 .f32) (x1 : FVec Ideal S4096x4096 .f32) (x2 : FVec Ideal S4096 .f32)
    (x3 : FVec Ideal S4096x16 .f32) (x4 : FVec Ideal S16x4096 .f32)
    (h : Cert.Pre_finite_inputs.fn (F := Ideal) x0 x1 x2 x3 x4 = fun _ => 1#1) :
    (∃ r : S4x2048x4096.Idx → ℝ, x0 = fun i => ((r i : ℝ) : EReal))
    ∧ (∃ r : S4096x4096.Idx → ℝ, x1 = fun i => ((r i : ℝ) : EReal))
    ∧ (∃ r : S4096.Idx → ℝ, x2 = fun i => ((r i : ℝ) : EReal))
    ∧ (∃ r : S4096x16.Idx → ℝ, x3 = fun i => ((r i : ℝ) : EReal))
    ∧ (∃ r : S16x4096.Idx → ℝ, x4 = fun i => ((r i : ℝ) : EReal)) := by
  -- the precondition's one word, its chain of operations unfolded
  have h0 := congrFun h ix0
  dsimp only [fn, fn_part1] at h0
  -- the outer ∧ of five: (((t0 ∧ t1) ∧ t2) ∧ t3) ∧ t4
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all x0 _ _ _ _ h0', real_of_all x1 _ _ _ _ h1, real_of_all x2 _ _ _ _ h2,
    real_of_all x3 _ _ _ _ h3, real_of_all x4 _ _ _ _ h4⟩

end Cert.Finite

end
-- ==== Proof.lean ====
/-
  A linear layer with a low-rank update: `x · (W + A B)ᵀ + b` in two kernel regions against `(x · Wᵀ + b) + x · (A B)ᵀ`.

  FRAMES. The kernel program is three host operations, a region that forms the effective weight `W + A B` tile by tile,
  a region that multiplies the activations with it over two halves of the contracted axis (an accumulator scratch carried
  from the first half's point to the second's) and adds the bias, and one host operation. Each region's body is run once
  per control case; the launch composes the four segments, and no segment writes an argument. The same text serves the
  word-level program and its idealization. The reference has no kernel: its frame is its run with the result dropped.

  PRESERVES. The idealization rewrote no operation: nothing to state.

  ALGEBRAIC. Over the extended reals narrowing is the identity, a product into a zero accumulator and the host's
  contraction are plain sums of products, and the two halves of the contracted axis add up to the whole. What is left is
  `∑ i, x i · (W i + L i) = ∑ i, x i · W i + ∑ i, x i · L i` up to the order of the additions — distributivity, which
  holds on finite values: the precondition makes every input a real array, and on reals it is `mul_add` under the sum.
-/
import proofs.«177365_j21225728377224_1_alg».proof.Defs
import proofs.«177365_j21225728377224_1_alg».proof.Proof.Gen.Kernel
import proofs.«177365_j21225728377224_1_alg».proof.Proof.Gen.KernelIdeal
import proofs.«177365_j21225728377224_1_alg».proof.Proof.Gen.ReferenceIdeal
import proofs.«177365_j21225728377224_1_alg».proof.Proof.Gen.Pre_finite_inputs
import proofs.«177365_j21225728377224_1_alg».proof.Proof.Gen.ReferenceIdeal.Run
import proofs.«177365_j21225728377224_1_alg».proof.Proof.Gen.ReferenceIdeal.Read
import proofs.«177365_j21225728377224_1_alg».proof.Proof.Kernel.Run
import proofs.«177365_j21225728377224_1_alg».proof.Proof.KernelIdeal.Run
import proofs.«177365_j21225728377224_1_alg».proof.Proof.KVal
import proofs.«177365_j21225728377224_1_alg».proof.Proof.RefVal
import proofs.«177365_j21225728377224_1_alg».proof.Proof.Finite
import proofs.«177365_j21225728377224_1_alg».proof.Proof.Spec
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and leaves its arguments unchanged. -/
theorem frame_k : Cert.frame_Kernel := fun m ρ _ => Cert.Kernel.Frm.frame (F := Bits) m ρ

/-- So does its idealization. -/
theorem frame_ki : Cert.frame_KernelIdeal := fun m ρ _ => Cert.KernelIdeal.Frm.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the kernel's value: the reference's is rewritten to it entry by entry, through the
    two specifications and the law between them on real inputs. -/
theorem algebraic : Cert.algebraic_KernelIdeal_ReferenceIdeal := by
  intro m ρ m' ρ' hpre hagree
  refine ⟨fun c => Cert.KernelIdeal.Frm.W4 (F := Ideal) m c (Proc.devRef .tc Cert.KernelIdeal.main_v5), ?_, ?_⟩
  · exact (θ_run Cert.KernelIdeal.defs _ _).mono (fun _ h c =>
      ⟨h c _ (Cert.KernelIdeal.Frm.mem_uc Cert.KernelIdeal.main_v5 (by decide)),
       (h c _ (Cert.KernelIdeal.Frm.mem_uc Cert.KernelIdeal.main_arg0 (by decide))).trans (Cert.KernelIdeal.Frm.W4_main_arg0 m c),
       (h c _ (Cert.KernelIdeal.Frm.mem_uc Cert.KernelIdeal.main_arg1 (by decide))).trans (Cert.KernelIdeal.Frm.W4_main_arg1 m c),
       (h c _ (Cert.KernelIdeal.Frm.mem_uc Cert.KernelIdeal.main_arg2 (by decide))).trans (Cert.KernelIdeal.Frm.W4_main_arg2 m c),
       (h c _ (Cert.KernelIdeal.Frm.mem_uc Cert.KernelIdeal.main_arg3 (by decide))).trans (Cert.KernelIdeal.Frm.W4_main_arg3 m c),
       (h c _ (Cert.KernelIdeal.Frm.mem_uc Cert.KernelIdeal.main_arg4 (by decide))).trans (Cert.KernelIdeal.Frm.W4_main_arg4 m c)⟩)
      (Cert.KernelIdeal.Frm.run_all (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    rw [Cert.ReferenceIdeal.Read.val_main_v6_eq]
    obtain ⟨⟨r0, h0⟩, ⟨r1, h1⟩, ⟨r2, h2⟩, ⟨r3, h3⟩, ⟨r4, h4⟩⟩ := Cert.Finite.real_of_pre _ _ _ _ _ (hpre c)
    refine funext fun (j : Cert.Spec.SX.Idx) => ?_
    obtain ⟨p, s, o, rfl⟩ : ∃ (p : Fin 4) (s : Fin 2048) (o : Fin 4096), j = ix3 p s o := ⟨j 0, j 1, j 2, eq_ix3 j⟩
    rw [Cert.ReferenceIdeal.RefValue.ref_apply]
    show _ = Cert.KernelIdeal.Frm.W4 (F := Ideal) m c (Proc.devRef .tc Cert.KernelIdeal.main_v5) (ix3 p s o)
    rw [Cert.KernelIdeal.KVal.result_apply, h0, h1, h2, h3, h4]
    exact (Cert.Spec.kerVal_eq_refVal r0 r1 r2 r3 r4 p s o).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
